-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S512x32x2048 : Shape := ⟨3, ![512, 32, 2048]⟩
abbrev S2048x512 : Shape := ⟨2, ![2048, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S512x32x2048 : S_.BroadcastsInDim S512x32x2048 (![] : Fin 0 → Fin S512x32x2048.rank)
  reducesTo_S512x32x2048_S_d0_1_2 : S512x32x2048.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S512 .f32) (main_arg8 : FVec F S512x2048 .f32) (main_arg9 : FVec F S2048 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x2048 .f32 := Host.absf main_arg8
  let main_cst_14 : FVec F S_ .f32 := constant S_ .f32 0x7F800000#32
  let main_v40 : FVec F S512x2048 .f32 := broadcastInDim S512x2048 ![] bcast_S_S512x2048 main_cst_14
  let main_v41 : IVec S512x2048 1 := cmpf .olt main_v39 main_v40
  let main_c_15 : IVec S_ 1 := constantI S_ 1 1#1
  let main_v42 : IVec S_ 1 := (fun x v => Host.reduce IntOp.andi x v reducesTo_S512x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S512x64 .f32) (main_arg5 : FVec F S64 .f32) (main_arg6 : FVec F S64x512 .f32) (main_arg7 : FVec F S512 .f32) (main_arg8 : FVec F S512x2048 .f32) (main_arg9 : FVec F S2048 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x512 .f32 := Host.absf main_arg6
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S512x2048 .f32) (main_arg1 : FVec F S512x32x2048 .f32) (main_arg2 : FVec F S2048x512 .f32) (main_arg3 : FVec F S512 .f32) (main_arg4 : FVec F S512x64 .f32) (main_arg5 : FVec F S64 .f32) (main_arg6 : FVec F S64x512 .f32) (main_arg7 : FVec F S512 .f32) (main_arg8 : FVec F S512x2048 .f32) (main_arg9 : FVec F S2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S512x32x2048 .f32 := Host.absf main_arg1
  let main_cst_0 : FVec F S_ .f32 := constant S_ .f32 0x7F800000#32
  let main_v5 : FVec F S512x32x2048 .f32 := broadcastInDim S512x32x2048 ![] bcast_S_S512x32x2048 main_cst_0
  let main_v6 : IVec S512x32x2048 1 := cmpf .olt main_v4 main_v5
  let main_c_1 : IVec S_ 1 := constantI S_ 1 1#1
  let main_v7 : IVec S_ 1 := (fun x v => Host.reduce IntOp.andi x v reducesTo_S512x32x2048_S_d0_1_2 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S512x2048 : Shape := ⟨2, ![512, 2048]⟩
abbrev S512x32x2048 : Shape := ⟨3, ![512, 32, 2048]⟩
abbrev S2048x512 : Shape := ⟨2, ![2048, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S2048 : Shape := ⟨1, ![2048]⟩
abbrev S256x128 : Shape := ⟨2, ![256, 128]⟩
abbrev S16x2048 : Shape := ⟨2, ![16, 2048]⟩
abbrev S16x32x2048 : Shape := ⟨3, ![16, 32, 2048]⟩
abbrev S8x128 : Shape := ⟨2, ![8, 128]⟩
abbrev S16x512 : Shape := ⟨2, ![16, 512]⟩
abbrev S1x512 : Shape := ⟨2, ![1, 512]⟩
abbrev S16x64 : Shape := ⟨2, ![16, 64]⟩
abbrev S1x64 : Shape := ⟨2, ![1, 64]⟩
abbrev S512x512 : Shape := ⟨2, ![512, 512]⟩
abbrev S16x32x64 : Shape := ⟨3, ![16, 32, 64]⟩
abbrev S16x1x64 : Shape := ⟨3, ![16, 1, 64]⟩
abbrev S16x32x512 : Shape := ⟨3, ![16, 32, 512]⟩
abbrev S16x1x512 : Shape := ⟨3, ![16, 1, 512]⟩
abbrev S16x32 : Shape := ⟨2, ![16, 32]⟩
abbrev S16 : Shape := ⟨1, ![16]⟩
abbrev S16x1 : Shape := ⟨2, ![16, 1]⟩
abbrev S1x16x1 : Shape := ⟨3, ![1, 16, 1]⟩
abbrev S1 : Shape := ⟨1, ![1]⟩
abbrev S1x1x1 : Shape := ⟨3, ![1, 1, 1]⟩
abbrev S_ : Shape := ⟨0, ![]⟩

abbrev nBuf : Space → Nat
  | .hbm => 19
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x32x2048, .f32⟩
  | .hbm, ⟨2, _⟩ => ⟨S2048x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S64x512, .f32⟩
  | .hbm, ⟨7, _⟩ => ⟨S512, .f32⟩
  | .hbm, ⟨8, _⟩ => ⟨S512x2048, .f32⟩
  | .hbm, ⟨9, _⟩ => ⟨S2048, .f32⟩
  | .hbm, ⟨10, _⟩ => ⟨S2048x512, .bf16⟩
  | .hbm, ⟨11, _⟩ => ⟨S512x64, .bf16⟩
  | .hbm, ⟨12, _⟩ => ⟨S64x512, .bf16⟩
  | .hbm, ⟨13, _⟩ => ⟨S512x2048, .bf16⟩
  | .hbm, ⟨14, _⟩ => ⟨S256x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S16x2048, .f32⟩
  | .local _ .vmem, ⟨1, _⟩ => ⟨S16x2048, .f32⟩
  | .local _ .vmem, ⟨2, _⟩ => ⟨S16x32x2048, .f32⟩
  | .local _ .vmem, ⟨3, _⟩ => ⟨S16x32x2048, .f32⟩
  | .local _ .vmem, ⟨4, _⟩ => ⟨S2048x512, .bf16⟩
  | .local _ .vmem, ⟨5, _⟩ => ⟨S512, .f32⟩
  | .local _ .vmem, ⟨6, _⟩ => ⟨S512x64, .bf16⟩
  | .local _ .vmem, ⟨7, _⟩ => ⟨S64, .f32⟩
  | .local _ .vmem, ⟨8, _⟩ => ⟨S64x512, .bf16⟩
  | .local _ .vmem, ⟨9, _⟩ => ⟨S512, .f32⟩
  | .local _ .vmem, ⟨10, _⟩ => ⟨S512x2048, .bf16⟩
  | .local _ .vmem, ⟨11, _⟩ => ⟨S2048, .f32⟩
  | .local _ .vmem, ⟨12, _⟩ => ⟨S8x128, .f32⟩
  | .local _ .vmem, ⟨13, _⟩ => ⟨S8x128, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v65 : BitVec 32 := Scalar.addi c0_i32 c4_i32
  let c1_i32 : BitVec 32 := 1#32
  ⟨c0_i32, v65, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v90 : BitVec 32 := Scalar.muli arg12 c512_i32
  v90
def k0_off1 (k0_t1 : Fin k0_t1_loop.trips) : Fin 2 → Nat :=
  let c0_34 : Index := 0#32
  let c0_i32 : BitVec 32 := 0#32
  let c1_i32 : BitVec 32 := 1#32
  let arg12 : BitVec 32 := Scf.iv c0_i32 c1_i32 k0_t1
  let c512_i32 : BitVec 32 := 512#32
  let v90 : BitVec 32 := Scalar.muli arg12 c512_i32
  let v91 : BitVec 32 := v90
  let v92 : Index := Scalar.indexCast v91
  ![0, v92.toNat]
def k0_off2 (k0_t1 : Fin k0_t1_loop.trips) : Fin 1 → Nat :=
  let c0_i32 : BitVec 32 := 0#32
  let c1_i32 : BitVec 32 := 1#32
  let arg12 : BitVec 32 := Scf.iv c0_i32 c1_i32 k0_t1
  let c512_i32 : BitVec 32 := 512#32
  let v90 : BitVec 32 := Scalar.muli arg12 c512_i32
  let v91 : BitVec 32 := v90
  let v95 : Index := Scalar.indexCast v91
  ![v95.toNat]
def k0_off3 (k0_t1 : Fin k0_t1_loop.trips) : Fin 3 → Nat :=
  let c0_35 : Index := 0#32
  let c0_36 : Index := 0#32
  let c0_i32 : BitVec 32 := 0#32
  let c1_i32 : BitVec 32 := 1#32
  let arg12 : BitVec 32 := Scf.iv c0_i32 c1_i32 k0_t1
  let c512_i32 : BitVec 32 := 512#32
  let v90 : BitVec 32 := Scalar.muli arg12 c512_i32
  let v91 : BitVec 32 := v90
  let v97 : Index := Scalar.indexCast v91
  ![0, 0, v97.toNat]
def k0_off4 (k0_t1 : Fin k0_t1_loop.trips) : Fin 2 → Nat :=
  let c0_37 : Index := 0#32
  let c0_i32 : BitVec 32 := 0#32
  let c1_i32 : BitVec 32 := 1#32
  let arg12 : BitVec 32 := Scf.iv c0_i32 c1_i32 k0_t1
  let c512_i32 : BitVec 32 := 512#32
  let v90 : BitVec 32 := Scalar.muli arg12 c512_i32
  let v91 : BitVec 32 := v90
  let v99 : Index := Scalar.indexCast v91
  ![0, v99.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  inb_S16x32x2048_S16x32x2048_0_0_0 : ∀ a, (![0, 0, 0] : Fin 3 → Nat) a + S16x32x2048.size a ≤ S16x32x2048.size a
  h_S16x32x2048 : 0 < S16x32x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64_S64_0 : ∀ a, (![0] : Fin 1 → Nat) a + S64.size a ≤ S64.size a
  h_S64 : 0 < S64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S512_S1x512 : S512.ShapeCasts S1x512
  broadcasts_S1x512_S16x512 : S1x512.Broadcasts S16x512
  shapeCasts_S64_S1x64 : S64.ShapeCasts S1x64
  broadcasts_S1x64_S16x64 : S1x64.Broadcasts S16x64
  shapeCasts_S16x32x2048_S512x2048 : S16x32x2048.ShapeCasts S512x2048
  broadcasts_S1x512_S512x512 : S1x512.Broadcasts S512x512
  broadcasts_S1x64_S512x64 : S1x64.Broadcasts S512x64
  shapeCasts_S512x64_S16x32x64 : S512x64.ShapeCasts S16x32x64
  shapeCasts_S16x64_S16x1x64 : S16x64.ShapeCasts S16x1x64
  shapeCasts_S16x1x64_S16x1x64 : S16x1x64.ShapeCasts S16x1x64
  broadcasts_S16x1x64_S16x32x64 : S16x1x64.Broadcasts S16x32x64
  shapeCasts_S16x32x64_S512x64 : S16x32x64.ShapeCasts S512x64
  natLt_1_32 : 1 < 32
  shapeCasts_S512x512_S16x32x512 : S512x512.ShapeCasts S16x32x512
  shapeCasts_S16x512_S16x1x512 : S16x512.ShapeCasts S16x1x512
  shapeCasts_S16x1x512_S16x1x512 : S16x1x512.ShapeCasts S16x1x512
  broadcasts_S16x1x512_S16x32x512 : S16x1x512.Broadcasts S16x32x512
  shapeCasts_S16x32x512_S512x512 : S16x32x512.ShapeCasts S512x512
  h_S512x512 : 0 < S512x512.numel
  shapeCasts_S512x512_S512x512 : S512x512.ShapeCasts S512x512
  h_S16x32x512 : 0 < S16x32x512.numel
  h_S16x512 : 0 < S16x512.numel
  reduces_S16x32x512_S16x32 : S16x32x512.Reduces [2] S16x32
  reduces_S16x32_S16 : S16x32.Reduces [1] S16
  shapeCasts_S16_S16x1 : S16.ShapeCasts S16x1
  shapeCasts_S16x1_S1x16x1 : S16x1.ShapeCasts S1x16x1
  reduces_S1x16x1_S1 : S1x16x1.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S256x128_S_d0_1 : S256x128.ReducesTo [0, 1] S_
  h_S_ : 0 < S_.numel
  dot_S16x2048_S2048x512_S16x512_1_0_0_1_n_n_wf : DotDims.WF S16x2048 S2048x512 S16x512 [1] [0] [0] [1] [] []
  dot_S16x512_S512x64_S16x64_1_0_0_1_n_n_wf : DotDims.WF S16x512 S512x64 S16x64 [1] [0] [0] [1] [] []
  dot_S512x2048_S2048x512_S512x512_1_0_0_1_n_n_wf : DotDims.WF S512x2048 S2048x512 S512x512 [1] [0] [0] [1] [] []
  dot_S512x512_S512x64_S512x64_1_0_0_1_n_n_wf : DotDims.WF S512x512 S512x64 S512x64 [1] [0] [0] [1] [] []
  dot_S16x64_S64x512_S16x512_1_0_0_1_n_n_wf : DotDims.WF S16x64 S64x512 S16x512 [1] [0] [0] [1] [] []
  dot_S512x64_S64x512_S512x512_1_0_0_1_n_n_wf : DotDims.WF S512x64 S64x512 S512x512 [1] [0] [0] [1] [] []
  dot_S16x512_S512x512_S16x512_1_0_0_1_n_n_wf : DotDims.WF S16x512 S512x512 S16x512 [1] [0] [0] [1] [] []
  dot_S512x512_S512x512_S512x512_1_0_0_1_n_n_wf : DotDims.WF S512x512 S512x512 S512x512 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S512x512.size a ≤ S512x2048.size a
  k0_off2_inb : ∀ k0_t1 : Fin k0_t1_loop.trips, ∀ a, (k0_off2 k0_t1) a + S512.size a ≤ S2048.size a
  k0_off3_inb : ∀ k0_t1 : Fin k0_t1_loop.trips, ∀ a, (k0_off3 k0_t1) a + S16x32x512.size a ≤ S16x32x2048.size a
  k0_off4_inb : ∀ k0_t1 : Fin k0_t1_loop.trips, ∀ a, (k0_off4 k0_t1) a + S16x512.size a ≤ S16x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048.size a ≤ S512x2048.size a
  hwx0_0 : ∀ i : grid0.Coords, EltTy.bits .f32 = 32 ∨ (Rect.block (s := S512x2048) S16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32x2048.size a ≤ S512x32x2048.size a
  hwx0_1 : ∀ i : grid0.Coords, EltTy.bits .f32 = 32 ∨ (Rect.block (s := S512x32x2048) S16x32x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .bf16 = 32 ∨ (Rect.block (s := S512x64) S512x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x512.size a
  hwx0_6 : ∀ i : grid0.Coords, EltTy.bits .bf16 = 32 ∨ (Rect.block (s := S64x512) S64x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S512x2048.size a
  hwx0_8 : ∀ i : grid0.Coords, EltTy.bits .bf16 = 32 ∨ (Rect.block (s := S512x2048) S512x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S2048.size a
  hwx0_9 : ∀ i : grid0.Coords, EltTy.bits .f32 = 32 ∨ (Rect.block (s := S2048) S2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S256x128.size a
  hwx0_10 : ∀ i : grid0.Coords, EltTy.bits .f32 = 32 ∨ (Rect.block (s := S256x128) S8x128.size (cc0_transform_10 i) (hinb0_10 i)).WholeWords (EltTy.packing .f32)

variable [Facts₀]

def dot_S16x2048_S2048x512_S16x512_1_0_0_1_n_n : DotDims S16x2048 S2048x512 S16x512 where
  lhsContracting := [1]
  rhsContracting := [0]
  lhsNonContracting := [0]
  rhsNonContracting := [1]
  lhsBatch := []
  rhsBatch := []
  wf := dot_S16x2048_S2048x512_S16x512_1_0_0_1_n_n_wf
def dot_S16x512_S512x64_S16x64_1_0_0_1_n_n : DotDims S16x512 S512x64 S16x64 where
  lhsContracting := [1]
  rhsContracting := [0]
  lhsNonContracting := [0]
  rhsNonContracting := [1]
  lhsBatch := []
  rhsBatch := []
  wf := dot_S16x512_S512x64_S16x64_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S16x64_S64x512_S16x512_1_0_0_1_n_n : DotDims S16x64 S64x512 S16x512 where
  lhsContracting := [1]
  rhsContracting := [0]
  lhsNonContracting := [0]
  rhsNonContracting := [1]
  lhsBatch := []
  rhsBatch := []
  wf := dot_S16x64_S64x512_S16x512_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S512x2048 : Shape := ⟨2, ![512, 2048]⟩
abbrev S512x32x2048 : Shape := ⟨3, ![512, 32, 2048]⟩
abbrev S2048x512 : Shape := ⟨2, ![2048, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S2048 : Shape := ⟨1, ![2048]⟩
abbrev S512x512 : Shape := ⟨2, ![512, 512]⟩
abbrev S1x512 : Shape := ⟨2, ![1, 512]⟩
abbrev S_ : Shape := ⟨0, ![]⟩
abbrev S1x64 : Shape := ⟨2, ![1, 64]⟩
abbrev S16384x2048 : Shape := ⟨2, ![16384, 2048]⟩
abbrev S16384x512 : Shape := ⟨2, ![16384, 512]⟩
abbrev S16384x64 : Shape := ⟨2, ![16384, 64]⟩
abbrev S512x32x64 : Shape := ⟨3, ![512, 32, 64]⟩
abbrev S512x1x64 : Shape := ⟨3, ![512, 1, 64]⟩
abbrev S1x2048 : Shape := ⟨2, ![1, 2048]⟩
abbrev S512x1x2048 : Shape := ⟨3, ![512, 1, 2048]⟩
abbrev S512x32 : Shape := ⟨2, ![512, 32]⟩

abbrev nBuf : Space → Nat
  | .hbm => 95
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x32x2048, .f32⟩
  | .hbm, ⟨2, _⟩ => ⟨S2048x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S64x512, .f32⟩
  | .hbm, ⟨7, _⟩ => ⟨S512, .f32⟩
  | .hbm, ⟨8, _⟩ => ⟨S512x2048, .f32⟩
  | .hbm, ⟨9, _⟩ => ⟨S2048, .f32⟩
  | .hbm, ⟨10, _⟩ => ⟨S512x512, .f32⟩
  | .hbm, ⟨11, _⟩ => ⟨S1x512, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x64, .f32⟩
  | .hbm, ⟨18, _⟩ => ⟨S1x64, .f32⟩
  | .hbm, ⟨19, _⟩ => ⟨S512x64, .f32⟩
  | .hbm, ⟨20, _⟩ => ⟨S512x64, .f32⟩
  | .hbm, ⟨21, _⟩ => ⟨S16384x2048, .f32⟩
  | .hbm, ⟨22, _⟩ => ⟨S16384x512, .f32⟩
  | .hbm, ⟨23, _⟩ => ⟨S1x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x64, .f32⟩
  | .hbm, ⟨30, _⟩ => ⟨S1x64, .f32⟩
  | .hbm, ⟨31, _⟩ => ⟨S16384x64, .f32⟩
  | .hbm, ⟨32, _⟩ => ⟨S16384x64, .f32⟩
  | .hbm, ⟨33, _⟩ => ⟨S512x32x64, .f32⟩
  | .hbm, ⟨34, _⟩ => ⟨S512x1x64, .f32⟩
  | .hbm, ⟨35, _⟩ => ⟨S512x32x64, .f32⟩
  | .hbm, ⟨36, _⟩ => ⟨S512x32x64, .f32⟩
  | .hbm, ⟨37, _⟩ => ⟨S512x1x64, .f32⟩
  | .hbm, ⟨38, _⟩ => ⟨S512x32x64, .f32⟩
  | .hbm, ⟨39, _⟩ => ⟨S16384x64, .f32⟩
  | .hbm, ⟨40, _⟩ => ⟨S16384x64, .f32⟩
  | .hbm, ⟨41, _⟩ => ⟨S16384x512, .f32⟩
  | .hbm, ⟨42, _⟩ => ⟨S16384x512, .f32⟩
  | .hbm, ⟨43, _⟩ => ⟨S1x512, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S_, .f32⟩
  | .hbm, ⟨50, _⟩ => ⟨S16384x512, .f32⟩
  | .hbm, ⟨51, _⟩ => ⟨S16384x512, .i1⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S512x512, .f32⟩
  | .hbm, ⟨61, _⟩ => ⟨S1x512, .f32⟩
  | .hbm, ⟨62, _⟩ => ⟨S512x512, .f32⟩
  | .hbm, ⟨63, _⟩ => ⟨S512x512, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S512x2048, .f32⟩
  | .hbm, ⟨68, _⟩ => ⟨S1x2048, .f32⟩
  | .hbm, ⟨69, _⟩ => ⟨S512x2048, .f32⟩
  | .hbm, ⟨70, _⟩ => ⟨S512x2048, .f32⟩
  | .hbm, ⟨71, _⟩ => ⟨S512x1x2048, .f32⟩
  | .hbm, ⟨72, _⟩ => ⟨S512x32x2048, .f32⟩
  | .hbm, ⟨73, _⟩ => ⟨S512x32x2048, .f32⟩
  | .hbm, ⟨74, _⟩ => ⟨S512x32x2048, .f32⟩
  | .hbm, ⟨75, _⟩ => ⟨S512x32x2048, .f32⟩
  | .hbm, ⟨76, _⟩ => ⟨S512x32x2048, .f32⟩
  | .hbm, ⟨77, _⟩ => ⟨S_, .f32⟩
  | .hbm, ⟨78, _⟩ => ⟨S512x32, .f32⟩
  | .hbm, ⟨79, _⟩ => ⟨S512x1x2048, .f32⟩
  | .hbm, ⟨80, _⟩ => ⟨S512x32x2048, .f32⟩
  | .hbm, ⟨81, _⟩ => ⟨S512x32x2048, .f32⟩
  | .hbm, ⟨82, _⟩ => ⟨S512x32x2048, .f32⟩
  | .hbm, ⟨83, _⟩ => ⟨S_, .f32⟩
  | .hbm, ⟨84, _⟩ => ⟨S512x32, .f32⟩
  | .hbm, ⟨85, _⟩ => ⟨S512x32, .f32⟩
  | .hbm, ⟨86, _⟩ => ⟨S_, .f32⟩
  | .hbm, ⟨87, _⟩ => ⟨S512x32, .f32⟩
  | .hbm, ⟨88, _⟩ => ⟨S512x32, .f32⟩
  | .hbm, ⟨89, _⟩ => ⟨S512x32, .f32⟩
  | .hbm, ⟨90, _⟩ => ⟨S512x32, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_cst : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call2_cst : Ref sig .tc := ⟨.hbm, 46, rfl⟩
abbrev main_call2_v0 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_cst_0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call3_cst : Ref sig .tc := ⟨.hbm, 64, rfl⟩
abbrev main_call3_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_1 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_2 : Ref sig .tc := ⟨.hbm, 83, rfl⟩
abbrev main_v62 : Ref sig .tc := ⟨.hbm, 84, rfl⟩
abbrev main_v63 : Ref sig .tc := ⟨.hbm, 85, rfl⟩
abbrev main_cst_3 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_4 : Ref sig .tc := ⟨.hbm, 91, rfl⟩
abbrev main_v68 : Ref sig .tc := ⟨.hbm, 92, rfl⟩
abbrev main_cst_5 : Ref sig .tc := ⟨.hbm, 93, rfl⟩
abbrev main_v69 : Ref sig .tc := ⟨.hbm, 94, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  shapeCasts_S512x32x2048_S16384x2048 : S512x32x2048.ShapeCasts S16384x2048
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S1x64_S16384x64_0_1 : S1x64.BroadcastsInDim S16384x64 (![0, 1] : Fin 2 → Fin S16384x64.rank)
  shapeCasts_S16384x64_S512x32x64 : S16384x64.ShapeCasts S512x32x64
  bcast_S512x64_S512x1x64_0_2 : S512x64.BroadcastsInDim S512x1x64 (![0, 2] : Fin 2 → Fin S512x1x64.rank)
  bcast_S512x1x64_S512x32x64_0_1_2 : S512x1x64.BroadcastsInDim S512x32x64 (![0, 1, 2] : Fin 3 → Fin S512x32x64.rank)
  shapeCasts_S512x32x64_S16384x64 : S512x32x64.ShapeCasts S16384x64
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S1x2048_S512x2048_0_1 : S1x2048.BroadcastsInDim S512x2048 (![0, 1] : Fin 2 → Fin S512x2048.rank)
  bcast_S512x2048_S512x1x2048_0_2 : S512x2048.BroadcastsInDim S512x1x2048 (![0, 2] : Fin 2 → Fin S512x1x2048.rank)
  shapeCasts_S16384x2048_S512x32x2048 : S16384x2048.ShapeCasts S512x32x2048
  bcast_S512x1x2048_S512x32x2048_0_1_2 : S512x1x2048.BroadcastsInDim S512x32x2048 (![0, 1, 2] : Fin 3 → Fin S512x32x2048.rank)
  reducesTo_S512x32x2048_S512x32_d2 : S512x32x2048.ReducesTo [2] S512x32
  h_S_ : 0 < S_.numel
  bcast_S_S512x32 : S_.BroadcastsInDim S512x32 (![] : Fin 0 → Fin S512x32.rank)
  reducesTo_S512x32_S_d0_1 : S512x32.ReducesTo [0, 1] S_
  dot_S512x2048_S2048x512_S512x512_1_0_0_1_n_n_wf : DotDims.WF S512x2048 S2048x512 S512x512 [1] [0] [0] [1] [] []
  dot_S512x512_S512x64_S512x64_1_0_0_1_n_n_wf : DotDims.WF S512x512 S512x64 S512x64 [1] [0] [0] [1] [] []
  dot_S16384x2048_S2048x512_S16384x512_1_0_0_1_n_n_wf : DotDims.WF S16384x2048 S2048x512 S16384x512 [1] [0] [0] [1] [] []
  dot_S16384x512_S512x64_S16384x64_1_0_0_1_n_n_wf : DotDims.WF S16384x512 S512x64 S16384x64 [1] [0] [0] [1] [] []
  dot_S16384x64_S64x512_S16384x512_1_0_0_1_n_n_wf : DotDims.WF S16384x64 S64x512 S16384x512 [1] [0] [0] [1] [] []
  dot_S16384x512_S512x2048_S16384x2048_1_0_0_1_n_n_wf : DotDims.WF S16384x512 S512x2048 S16384x2048 [1] [0] [0] [1] [] []
  dot_S512x64_S64x512_S512x512_1_0_0_1_n_n_wf : DotDims.WF S512x64 S64x512 S512x512 [1] [0] [0] [1] [] []
  dot_S512x512_S512x2048_S512x2048_1_0_0_1_n_n_wf : DotDims.WF S512x512 S512x2048 S512x2048 [1] [0] [0] [1] [] []

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S16384x2048_S2048x512_S16384x512_1_0_0_1_n_n : DotDims S16384x2048 S2048x512 S16384x512 where
  lhsContracting := [1]
  rhsContracting := [0]
  lhsNonContracting := [0]
  rhsNonContracting := [1]
  lhsBatch := []
  rhsBatch := []
  wf := dot_S16384x2048_S2048x512_S16384x512_1_0_0_1_n_n_wf
def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf
def dot_S16384x64_S64x512_S16384x512_1_0_0_1_n_n : DotDims S16384x64 S64x512 S16384x512 where
  lhsContracting := [1]
  rhsContracting := [0]
  lhsNonContracting := [0]
  rhsNonContracting := [1]
  lhsBatch := []
  rhsBatch := []
  wf := dot_S16384x64_S64x512_S16384x512_1_0_0_1_n_n_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

class Facts : Prop extends Facts₀ where

variable [Facts]
-- ==== Proof.KRun.lean ====
/-
  The kernel body's one store, read back as a value.

  The body accumulates, over four trips of a counted loop, two [16, 32] sums (each trip adds the contribution of
  one 512-wide slice of the 2048 coordinates), then reduces them to one number and stores an [8, 128] tile that
  holds that number in its corner. Here: what one trip adds to the carried pair, as the two payloads of the loop
  body applied to the slices the trip loads; and the stored tile as the final payload of the carried pair after
  the last trip.
-/
import proofs.«418416_j8194797601160_3_alg».proof.Proof.Gen.KernelIdeal.Frame
import Idealize.ShloMosaic.Lib.Pipeline.Value

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- One trip of the loop: the carried pair after trip `k` is the loop body's two payloads of the carried pair before
    it and of the slices the trip loads from the decoder's second layer, its bias, the neighbours and the centres. -/
theorem trip_eq (𝒱 : Variants) (bd : Option 𝒱.V) (c : Dev nD) (i : grid0.Coords) (arg1 : Memref sig .tc .vmem S16x2048 .f32) (harg1 : arg1.IsWhole) (arg2 : Memref sig .tc .vmem S16x32x2048 .f32) (harg2 : arg2.IsWhole) (arg3 : Memref sig .tc .vmem S2048x512 .bf16) (harg3 : arg3.IsWhole) (arg4 : Memref sig .tc .vmem S512 .f32) (harg4 : arg4.IsWhole) (arg5 : Memref sig .tc .vmem S512x64 .bf16) (harg5 : arg5.IsWhole) (arg6 : Memref sig .tc .vmem S64 .f32) (harg6 : arg6.IsWhole) (arg7 : Memref sig .tc .vmem S64x512 .bf16) (harg7 : arg7.IsWhole) (arg8 : Memref sig .tc .vmem S512 .f32) (harg8 : arg8.IsWhole) (arg9 : Memref sig .tc .vmem S512x2048 .bf16) (harg9 : arg9.IsWhole) (arg10 : Memref sig .tc .vmem S2048 .f32) (harg10 : arg10.IsWhole) (arg11 : Memref sig .tc .vmem S8x128 .f32) (harg11 : arg11.IsWhole) (v9 : FVec F S64x512 .bf16) (v10 : Vec F S512 .f32) (v22 : FVec F S16x64 .f32) (v36 : FVec F S16x32x64 .f32) (v38 : FVec F S16x1x64 .f32)
    (x0 : Vec F S16x2048 .f32) (x1 : Vec F S16x32x2048 .f32) (x8 : Vec F S512x2048 .bf16) (x9 : Vec F S2048 .f32)
    (k : Fin k0_t1_loop.trips) (acc : FVec F S16x32 .f32 × FVec F S16x32 .f32) :
    tripR_k0_t1 (F := F) 𝒱 c bd i arg1 harg1 arg2 harg2 arg3 harg3 arg4 harg4 arg5 harg5 arg6 harg6 arg7 harg7 arg8 harg8 arg9 harg9 arg10 harg10 arg11 harg11 v9 v10 v22 v36 v38 (harg1.unread x0) (harg2.unread x1) (harg9.unread x8) (harg10.unread x9) k acc
      = (k0_pay10 v9 v10 v22 v36 v38 acc.1
            (View.ld x8 (Rect.unit (s := S512x2048) (k0_off1 k) S512x512.size (k0_off1_inb k)))
            (View.ld x9 (Rect.unit (s := S2048) (k0_off2 k) S512.size (k0_off2_inb k)))
            (View.ld x1 (Rect.unit (s := S16x32x2048) (k0_off3 k) S16x32x512.size (k0_off3_inb k))),
         k0_pay11 acc.2
            (View.ld x1 (Rect.unit (s := S16x32x2048) (k0_off3 k) S16x32x512.size (k0_off3_inb k)))
            (View.ld x0 (Rect.unit (s := S16x2048) (k0_off4 k) S16x512.size (k0_off4_inb k)))) := by
  unfold tripR_k0_t1
  unfold trip_k0_t1
  dsimp only
  sl_unfold_run_names
  simp only [View.readAt_eq_ld, harg1.read_unread, harg2.read_unread, harg9.read_unread, harg10.read_unread]

theorem hz2 : (![0, 0] : Fin 2 → Nat) = fun _ => 0 := funext fun a => by fin_cases a <;> rfl
theorem hz1 : (![0] : Fin 1 → Nat) = fun _ => 0 := funext fun a => by fin_cases a <;> rfl
theorem hz3 : (![0, 0, 0] : Fin 3 → Nat) = fun _ => 0 := funext fun a => by fin_cases a <;> rfl

/-- The tile the body leaves in the output's buffer: the corner payload of the reduced carried pair after the last
    trip, the loop started from the two zero vectors. -/
theorem out_piece (c : Dev nD) (i : grid0.Coords) (arg1 : Memref sig .tc .vmem S16x2048 .f32) (harg1 : arg1.IsWhole) (arg2 : Memref sig .tc .vmem S16x32x2048 .f32) (harg2 : arg2.IsWhole) (arg3 : Memref sig .tc .vmem S2048x512 .bf16) (harg3 : arg3.IsWhole) (arg4 : Memref sig .tc .vmem S512 .f32) (harg4 : arg4.IsWhole) (arg5 : Memref sig .tc .vmem S512x64 .bf16) (harg5 : arg5.IsWhole) (arg6 : Memref sig .tc .vmem S64 .f32) (harg6 : arg6.IsWhole) (arg7 : Memref sig .tc .vmem S64x512 .bf16) (harg7 : arg7.IsWhole) (arg8 : Memref sig .tc .vmem S512 .f32) (harg8 : arg8.IsWhole) (arg9 : Memref sig .tc .vmem S512x2048 .bf16) (harg9 : arg9.IsWhole) (arg10 : Memref sig .tc .vmem S2048 .f32) (harg10 : arg10.IsWhole) (arg11 : Memref sig .tc .vmem S8x128 .f32) (harg11 : arg11.IsWhole) (x0 : Vec F S16x2048 .f32) (x1 : Vec F S16x32x2048 .f32) (x2 : Vec F S2048x512 .bf16) (x3 : Vec F S512 .f32) (x4 : Vec F S512x64 .bf16) (x5 : Vec F S64 .f32) (x6 : Vec F S64x512 .bf16) (x7 : Vec F S512 .f32) (x8 : Vec F S512x2048 .bf16) (x9 : Vec F S2048 .f32) :
    out0_A_10 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9
      = k0_pay1 (k0_pay12 (st_k0_t1 (F := F) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) (Scf.trips k0_t1_loop.lb k0_t1_loop.ub k0_t1_loop.st)).1
                          (st_k0_t1 (F := F) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) (Scf.trips k0_t1_loop.lb k0_t1_loop.ub k0_t1_loop.st)).2)
          (iota .tc S8x128 32 [1] iota_S8x128_d1_w32) k0_pay13 0#32 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  unfold kernelRun0_A
  dsimp only
  sl_unfold_run_names
  rw [View.canon_unit_zero hz2]
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S16x2048) hz2, View.ld_unit_zero (S := S16x32x2048) hz3, View.ld_unit_zero (S := S2048x512) hz2,
    View.ld_unit_zero (S := S512) hz1, View.ld_unit_zero (S := S512x64) hz2, View.ld_unit_zero (S := S64) hz1,
    View.ld_unit_zero (S := S64x512) hz2]

end Cert.KRun

end
-- ==== Proof.Spec.lean ====
/-
  The quantity both programs compute, written over plain index functions on the extended reals.

  A point x (2048 coordinates) is encoded to 64 coordinates by a two-layer map with a rectifier between the
  layers. For a centre xc and a neighbour xn of it, the decoder (64 → 512 → 2048, again with a rectifier) is
  linearised at the centre's code: the neighbour is predicted by the decoder's value at the centre's code plus
  the decoder's derivative there applied to the difference of the two codes. The derivative of the rectifier is
  the indicator of a positive pre-activation; one program multiplies by that indicator as a number (0 or 1),
  the other selects between the tangent and zero. The squared prediction error, summed over the 2048
  coordinates, is weighted by a Gaussian of the squared distance between neighbour and centre; the result is
  the mean of these weighted errors over 512 centres with 32 neighbours each.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The float zero as both programs spell it. -/
def Z : EReal := Ideal.ofBits .f32 0x00000000#32

/-- The width of the Gaussian weight, 4096, as both programs spell it. -/
def Sig : EReal := Ideal.ofBits .f32 0x45800000#32

/-- The number of (centre, neighbour) pairs, 16384, as both programs spell it. -/
def Cnt : EReal := Ideal.ofBits .f32 0x46800000#32

/-- The encoder's hidden layer: coordinate h of relu(x·W1 + b1). -/
def hid (W1 : Fin 2048 → Fin 512 → EReal) (b1 : Fin 512 → EReal) (x : Fin 2048 → EReal) (h : Fin 512) : EReal :=
  max ((∑ d : Fin 2048, x d * W1 d h) + b1 h) Z

/-- The encoder: coordinate z of relu(x·W1 + b1)·W2 + b2. -/
def enc (W1 : Fin 2048 → Fin 512 → EReal) (b1 : Fin 512 → EReal) (W2 : Fin 512 → Fin 64 → EReal) (b2 : Fin 64 → EReal)
    (x : Fin 2048 → EReal) (z : Fin 64) : EReal :=
  (∑ h : Fin 512, hid W1 b1 x h * W2 h z) + b2 z

/-- The decoder's pre-activation at a code: coordinate h of zc·V1 + c1. -/
def pre (V1 : Fin 64 → Fin 512 → EReal) (c1 : Fin 512 → EReal) (zc : Fin 64 → EReal) (h : Fin 512) : EReal :=
  (∑ z : Fin 64, zc z * V1 z h) + c1 h

/-- The tangent through the decoder's first layer: coordinate h of (zn − zc)·V1. -/
def tang (V1 : Fin 64 → Fin 512 → EReal) (zc zn : Fin 64 → EReal) (h : Fin 512) : EReal :=
  ∑ z : Fin 64, (zn z - zc z) * V1 z h

/-- The rectifier's derivative as a number: 1 where the pre-activation is positive, else 0. -/
def gate (p : EReal) : EReal :=
  FloatOps.sitofp (F := Ideal) .f32 ((FloatOps.cmpf (F := Ideal) (φ := .f32) .ogt p Z).setWidth 32)

/-- The tangent after the rectifier, by multiplication with the indicator. -/
def dactMul (V1 : Fin 64 → Fin 512 → EReal) (c1 : Fin 512 → EReal) (zc zc' zn : Fin 64 → EReal) (h : Fin 512) : EReal :=
  tang V1 zc' zn h * gate (pre V1 c1 zc h)

/-- The tangent after the rectifier, by selection. -/
def dactSel (V1 : Fin 64 → Fin 512 → EReal) (c1 : Fin 512 → EReal) (zc zn : Fin 64 → EReal) (h : Fin 512) : EReal :=
  Scalar.select (FloatOps.cmpf (F := Ideal) (φ := .f32) .ogt (pre V1 c1 zc h) Z) (tang V1 zc zn h) Z

/-- One coordinate's squared prediction error, the tangent gated by multiplication. `v2` is the column of the
    decoder's second layer for this coordinate, `c2d` its bias, `xnd` the neighbour's coordinate; `zc` is the
    centre's code where the pre-activation reads it and `zc'` where the code difference reads it. -/
def colMul (V1 : Fin 64 → Fin 512 → EReal) (c1 : Fin 512 → EReal) (zc zc' zn : Fin 64 → EReal)
    (v2 : Fin 512 → EReal) (c2d xnd : EReal) : EReal :=
  (xnd - (((∑ h : Fin 512, max (pre V1 c1 zc h) Z * v2 h) + c2d) + ∑ h : Fin 512, dactMul V1 c1 zc zc' zn h * v2 h))
    * (xnd - (((∑ h : Fin 512, max (pre V1 c1 zc h) Z * v2 h) + c2d) + ∑ h : Fin 512, dactMul V1 c1 zc zc' zn h * v2 h))

/-- One coordinate's squared prediction error, the tangent gated by selection. -/
def colSel (V1 : Fin 64 → Fin 512 → EReal) (c1 : Fin 512 → EReal) (zc zn : Fin 64 → EReal)
    (v2 : Fin 512 → EReal) (c2d xnd : EReal) : EReal :=
  (xnd - (((∑ h : Fin 512, max (pre V1 c1 zc h) Z * v2 h) + c2d) + ∑ h : Fin 512, dactSel V1 c1 zc zn h * v2 h))
    * (xnd - (((∑ h : Fin 512, max (pre V1 c1 zc h) Z * v2 h) + c2d) + ∑ h : Fin 512, dactSel V1 c1 zc zn h * v2 h))

/-- One coordinate's squared distance between neighbour and centre. -/
def dsq (xcd xnd : EReal) : EReal := (xnd - xcd) * (xnd - xcd)

/-- The Gaussian weight of a squared distance, the negation written as a difference from zero. -/
def wSub (s : EReal) : EReal := Ideal.exp (Ideal.div (Z - s) Sig)

/-- The Gaussian weight of a squared distance, the negation written as such. -/
def wNeg (s : EReal) : EReal := Ideal.exp (Ideal.div (-s) Sig)

/-- The weighted error of one (centre, neighbour) pair as the reference forms it: both sums over all 2048
    coordinates at once, from the zero the reduction starts at. -/
def termRef (W1 : Fin 2048 → Fin 512 → EReal) (b1 : Fin 512 → EReal) (W2 : Fin 512 → Fin 64 → EReal) (b2 : Fin 64 → EReal)
    (V1 : Fin 64 → Fin 512 → EReal) (c1 : Fin 512 → EReal) (V2 : Fin 512 → Fin 2048 → EReal) (c2 : Fin 2048 → EReal)
    (xc xn : Fin 2048 → EReal) : EReal :=
  wNeg (Z + ∑ d : Fin 2048, dsq (xc d) (xn d))
    * (Z + ∑ d : Fin 2048, colSel V1 c1 (enc W1 b1 W2 b2 xc) (enc W1 b1 W2 b2 xn) (fun h => V2 h d) (c2 d) (xn d))

/-- The whole result as the reference forms it, from its ten argument arrays. -/
def refTotal (a0 : (⟨2, ![512, 2048]⟩ : Shape).Idx → EReal) (a1 : (⟨3, ![512, 32, 2048]⟩ : Shape).Idx → EReal)
    (a2 : (⟨2, ![2048, 512]⟩ : Shape).Idx → EReal) (a3 : (⟨1, ![512]⟩ : Shape).Idx → EReal)
    (a4 : (⟨2, ![512, 64]⟩ : Shape).Idx → EReal) (a5 : (⟨1, ![64]⟩ : Shape).Idx → EReal)
    (a6 : (⟨2, ![64, 512]⟩ : Shape).Idx → EReal) (a7 : (⟨1, ![512]⟩ : Shape).Idx → EReal)
    (a8 : (⟨2, ![512, 2048]⟩ : Shape).Idx → EReal) (a9 : (⟨1, ![2048]⟩ : Shape).Idx → EReal) : EReal :=
  Ideal.div (Z + ∑ b : Fin 512, ∑ k : Fin 32,
    termRef (fun d h => a2 (ix2 d h)) (fun h => a3 (ix1 h)) (fun h z => a4 (ix2 h z)) (fun z => a5 (ix1 z))
      (fun z h => a6 (ix2 z h)) (fun h => a7 (ix1 h)) (fun h d => a8 (ix2 h d)) (fun d => a9 (ix1 d))
      (fun d => a0 (ix2 b d)) (fun d => a1 (ix3 b k d))) Cnt

end Cert.Spec

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.KPayEnc.lean ====
/-
  The encoder's code read at an index.

  A block of rows X (M rows of 2048 coordinates) is sent through the two dense layers of the encoder: the product
  with the first weight matrix plus its bias, the rectifier, the product with the second weight matrix plus its
  bias. Read at row p and output coordinate z this is the encoder of Spec applied to row p. The lemma is stated
  once for any number of rows; the three values the program forms from it (the centres' codes, the neighbours'
  codes after a regrouping of rows, and the centres' codes with a unit axis put in) are read off from it.
-/
import proofs.«418416_j8194797601160_3_alg».proof.Proof.Gen.KernelIdeal.Skeleton
import proofs.«418416_j8194797601160_3_alg».proof.Proof.Spec
import proofs.«418416_j8194797601160_3_alg».proof.Proof.LibDot
import Idealize.ShloMosaic.Lib.ValueLayout
import Idealize.ShloMosaic.Lib.Pipeline.Value

noncomputable section

open scoped BigOperators

namespace Cert.KPay

open Cert.KernelIdeal Cert.KernelIdeal.Gen Cert.Spec Cert.Lib.Dot Idealize.ShloMosaic Idealize.ShloMosaic.ValueIdx

/-- A cast of the first weight matrix to its own shape is the matrix. -/
theorem pay2_eq (x2 : Vec Ideal S2048x512 .bf16) : k0_pay2 (F := Ideal) x2 = x2 :=
  shapeCast_self x2 _

/-- A cast of the second weight matrix to its own shape is the matrix. -/
theorem pay3_eq (x4 : Vec Ideal S512x64 .bf16) : k0_pay3 (F := Ideal) x4 = x4 :=
  shapeCast_self x4 _

/-- A cast of the decoder's first weight matrix to its own shape is the matrix. -/
theorem pay4_eq (x6 : Vec Ideal S64x512 .bf16) : k0_pay4 (F := Ideal) x6 = x6 :=
  shapeCast_self x6 _

theorem pay4_apply (x6 : Vec Ideal S64x512 .bf16) (z : Fin 64) (h : Fin 512) :
    k0_pay4 (F := Ideal) x6 (ix2 z h) = x6 (ix2 z h) := by
  rw [pay4_eq]

/-- The two dense layers on M rows, read at row p and coordinate z: the encoder of row p. -/
theorem enc_rows {M : Nat}
    (dA : DotDims ⟨2, ![M, 2048]⟩ ⟨2, ![2048, 512]⟩ ⟨2, ![M, 512]⟩) (hA : IsRowsCols dA)
    (dB : DotDims ⟨2, ![M, 512]⟩ ⟨2, ![512, 64]⟩ ⟨2, ![M, 64]⟩) (hB : IsRowsCols dB)
    (sc1 : S512.ShapeCasts S1x512) (bc1 : S1x512.Broadcasts ⟨2, ![M, 512]⟩)
    (sc2 : S64.ShapeCasts S1x64) (bc2 : S1x64.Broadcasts ⟨2, ![M, 64]⟩)
    (hlt : FTy.bits .bf16 < FTy.bits .f32)
    (X : FVec Ideal ⟨2, ![M, 2048]⟩ .f32) (x2 : FVec Ideal ⟨2, ![2048, 512]⟩ .bf16) (x3 : FVec Ideal S512 .f32)
    (x4 : FVec Ideal ⟨2, ![512, 64]⟩ .bf16) (x5 : FVec Ideal S64 .f32) (p : Fin M) (z : Fin 64) :
    addf (matmul (F := Ideal) dB none
          (truncf .bf16 (maximumf
            (addf (matmul (F := Ideal) dA none (truncf .bf16 X hlt) x2 (constant (F := Ideal) ⟨2, ![M, 512]⟩ .f32 0x00000000#32))
              (broadcastTo ⟨2, ![M, 512]⟩ (shapeCast S1x512 x3 sc1) bc1))
            (broadcast ⟨2, ![M, 512]⟩ (Scalar.ofBits (F := Ideal) .f32 0x00000000#32))) hlt)
          x4 (constant (F := Ideal) ⟨2, ![M, 64]⟩ .f32 0x00000000#32))
        (broadcastTo ⟨2, ![M, 64]⟩ (shapeCast S1x64 x5 sc2) bc2) (ix2 p z)
      = enc (fun d h => x2 (ix2 d h)) (fun h => x3 (ix1 h)) (fun h z => x4 (ix2 h z)) (fun z => x5 (ix1 z))
          (fun d => X (ix2 p d)) z := by
  rw [addf_apply, matmul0_rc dB hB, broadcastTo_1b_ab_apply, shapeCast_a_1a_apply]
  unfold enc
  refine congrArg (· + x5 (ix1 z)) (Finset.sum_congr rfl fun h _ => ?_)
  refine congrArg (· * x4 (ix2 h z)) ?_
  rw [truncf_apply, maximumf_apply, addf_apply, matmul0_rc dA hA, broadcastTo_1b_ab_apply, shapeCast_a_1a_apply]
  rfl

theorem pay5_apply (x0 : Vec Ideal S16x2048 .f32) (x2 : Vec Ideal S2048x512 .bf16) (x3 : Vec Ideal S512 .f32)
    (x4 : Vec Ideal S512x64 .bf16) (x5 : Vec Ideal S64 .f32) (r : Fin 16) (z : Fin 64) :
    k0_pay5 (F := Ideal) x0 x2 x3 x4 x5 (ix2 r z)
      = enc (fun d h => x2 (ix2 d h)) (fun h => x3 (ix1 h)) (fun h z => x4 (ix2 h z)) (fun z => x5 (ix1 z))
          (fun d => x0 (ix2 r d)) z := by
  unfold k0_pay5
  rw [pay2_eq, pay3_eq]
  exact enc_rows dot_S16x2048_S2048x512_S16x512_1_0_0_1_n_n ⟨rfl, rfl, rfl, rfl, rfl, rfl⟩
    dot_S16x512_S512x64_S16x64_1_0_0_1_n_n ⟨rfl, rfl, rfl, rfl, rfl, rfl⟩ _ _ _ _ _ x0 x2 x3 x4 x5 r z

/-- A [16, 32, n] array regrouped as [512, n] reads, at row 32·r + k, the entry (r, k, ·). -/
theorem regroup_in {n : Nat} {α : Type} (x : (⟨3, ![16, 32, n]⟩ : Shape).Idx → α)
    (h : (⟨3, ![16, 32, n]⟩ : Shape).ShapeCasts ⟨2, ![512, n]⟩) (r : Fin 16) (k : Fin 32) (hrow : r.val * 32 + k.val < 512)
    (d : Fin n) : shapeCast ⟨2, ![512, n]⟩ x h (ix2 (⟨r.val * 32 + k.val, hrow⟩ : Fin 512) d) = x (ix3 r k d) :=
  shapeCast_apply x h _ _ (by
    rw [Shape.rowMajor_val_two, Shape.rowMajor_val_three]
    rfl)

/-- A [512, n] array regrouped as [16, 32, n] reads, at (r, k, ·), row 32·r + k. -/
theorem regroup_out {n : Nat} {α : Type} (x : (⟨2, ![512, n]⟩ : Shape).Idx → α)
    (h : (⟨2, ![512, n]⟩ : Shape).ShapeCasts ⟨3, ![16, 32, n]⟩) (r : Fin 16) (k : Fin 32) (hrow : r.val * 32 + k.val < 512)
    (d : Fin n) : shapeCast ⟨3, ![16, 32, n]⟩ x h (ix3 r k d) = x (ix2 (⟨r.val * 32 + k.val, hrow⟩ : Fin 512) d) :=
  shapeCast_apply x h _ _ (by
    rw [Shape.rowMajor_val_two, Shape.rowMajor_val_three]
    rfl)

theorem pay6_apply (x1 : Vec Ideal S16x32x2048 .f32) (x2 : Vec Ideal S2048x512 .bf16) (x3 : Vec Ideal S512 .f32)
    (x4 : Vec Ideal S512x64 .bf16) (x5 : Vec Ideal S64 .f32) (r : Fin 16) (k : Fin 32) (z : Fin 64) :
    k0_pay6 (F := Ideal) x1 x2 x3 x4 x5 (ix3 r k z)
      = enc (fun d h => x2 (ix2 d h)) (fun h => x3 (ix1 h)) (fun h z => x4 (ix2 h z)) (fun z => x5 (ix1 z))
          (fun d => x1 (ix3 r k d)) z := by
  have hrow : r.val * 32 + k.val < 512 := by have := r.isLt; have := k.isLt; omega
  unfold k0_pay6
  rw [pay2_eq, pay3_eq]
  refine (regroup_out _ _ r k hrow z).trans ?_
  refine (enc_rows dot_S512x2048_S2048x512_S512x512_1_0_0_1_n_n ⟨rfl, rfl, rfl, rfl, rfl, rfl⟩
    dot_S512x512_S512x64_S512x64_1_0_0_1_n_n ⟨rfl, rfl, rfl, rfl, rfl, rfl⟩ _ _ _ _ _ _ x2 x3 x4 x5 ⟨r.val * 32 + k.val, hrow⟩ z).trans ?_
  exact congrArg (fun X => enc (fun d h => x2 (ix2 d h)) (fun h => x3 (ix1 h)) (fun h z => x4 (ix2 h z)) (fun z => x5 (ix1 z)) X z)
    (funext fun d => regroup_in x1 _ r k hrow d)

/-- The centres' codes with a unit axis put in the middle read the codes themselves. -/
theorem pay7_apply (x0 : Vec Ideal S16x2048 .f32) (x2 : Vec Ideal S2048x512 .bf16) (x3 : Vec Ideal S512 .f32)
    (x4 : Vec Ideal S512x64 .bf16) (x5 : Vec Ideal S64 .f32) (r : Fin 16) (z : Fin 64) :
    k0_pay7 (F := Ideal) x0 x2 x3 x4 x5 (ix3 r (0 : Fin 1) z) = k0_pay5 (F := Ideal) x0 x2 x3 x4 x5 (ix2 r z) := by
  unfold k0_pay7
  rw [shapeCast_self]
  exact shapeCast_apply _ _ (ix3 r (0 : Fin 1) z) (ix2 r z) (by
    rw [Shape.rowMajor_val_two, Shape.rowMajor_val_three]
    show r.val * 64 + z.val = (r.val * 1 + 0) * 64 + z.val
    omega)

end Cert.KPay

end
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.LibSumIdx.lean ====
/-
  Sums over a rank-1 and a rank-3 index set as iterated sums over the coordinates: the index set of a shape
  `[n]` is `Fin n`, that of `[n0, n1, n2]` is `Fin n0 × Fin n1 × Fin n2`, so a sum over all indices of an array
  is the sum over its first coordinate of the sum over its second of the sum over its third. Stated for any
  additive commutative monoid; the rank-2 case is the library's `ValueIdx.sum_idx2`.
-/
import Idealize.ShloMosaic.Lib.ValueIdx

noncomputable section

open scoped BigOperators

namespace Cert.LibSumIdx

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx

end
-- ==== Proof.KPayTail.lean ====
/-
  The three small values at the end of a grid step, read at an index.

  The running squared distance between a neighbour and its centre gains, at each step, the sum over the step's 512
  coordinates of the squared differences. When the coordinates are exhausted, each (centre, neighbour) pair's error is
  weighted by the Gaussian of its squared distance and the 16 × 32 weighted errors are added up: first along the
  neighbours, then along the centres. The total is written to entry (0, 0) of an 8 × 128 tile whose other entries
  are zero.
-/
import proofs.«418416_j8194797601160_3_alg».proof.Proof.Gen.KernelIdeal.Skeleton
import proofs.«418416_j8194797601160_3_alg».proof.Proof.Spec
import proofs.«418416_j8194797601160_3_alg».proof.Proof.LibRowsCols
import proofs.«418416_j8194797601160_3_alg».proof.Proof.LibSumIdx
import Idealize.ShloMosaic.Lib.ValueLayout
import Idealize.ShloMosaic.Lib.Pipeline.Value

noncomputable section

open scoped BigOperators

namespace Cert.KPay

open Cert.KernelIdeal Cert.KernelIdeal.Gen Cert.Spec Idealize.ShloMosaic Idealize.ShloMosaic.ValueIdx
open Idealize.ShloMosaic.RowsCols Cert.LibSumIdx

/-- The sum over the last axis of an [a, b, c] array, at (i, j): the sum of that fibre. -/
theorem lastAxisSum_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  rw [Ideal.multiReduction_add_single]
  show ∑ k : Fin c, src (h.lift (ix2 i j) k) = _
  refine Finset.sum_congr rfl fun k _ => congrArg src (funext fun d => Fin.ext ?_)
  match d with
  | ⟨0, _⟩ => rfl
  | ⟨1, _⟩ => rfl
  | ⟨2, _⟩ => rfl

/-- An [a, c] array with a unit axis put in the middle and spread over b reads, at (i, j, k), the entry (i, k). -/
theorem spread_mid_apply {a b c : ℕ} {α : Type} (x : (⟨2, ![a, c]⟩ : Shape).Idx → α)
    (h1 : (⟨2, ![a, c]⟩ : Shape).ShapeCasts ⟨3, ![a, 1, c]⟩) (h2 : (⟨3, ![a, 1, c]⟩ : Shape).ShapeCasts ⟨3, ![a, 1, c]⟩)
    (h3 : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ (shapeCast ⟨3, ![a, 1, c]⟩ x h1) h2) h3 (ix3 i j k) = x (ix2 i k) := by
  rw [shapeCast_self]
  refine (broadcastTo_apply _ h3 (ix3 i j k) (ix3 i (0 : Fin 1) k) fun ax => ?_).trans ?_
  · match ax with
    | ⟨0, _⟩ =>
      show i.val = if a = 1 then 0 else i.val
      split
      · have := i.isLt; omega
      · rfl
    | ⟨1, _⟩ => rfl
    | ⟨2, _⟩ =>
      show k.val = if c = 1 then 0 else k.val
      split
      · have := k.isLt; omega
      · rfl
  · exact shapeCast_apply x h1 _ _ (by
      rw [Shape.rowMajor_val_two, Shape.rowMajor_val_three]
      show i.val * c + k.val = (i.val * 1 + 0) * c + k.val
      rw [Nat.mul_one, Nat.add_zero])

theorem pay11_apply (arg14 : FVec Ideal S16x32 .f32) (v98 : Vec Ideal S16x32x512 .f32) (v100 : Vec Ideal S16x512 .f32)
    (r : Fin 16) (k : Fin 32) :
    k0_pay11 (F := Ideal) arg14 v98 v100 (ix2 r k)
      = arg14 (ix2 r k) + ∑ j : Fin 512, dsq (v100 (ix2 r j)) (v98 (ix3 r k j)) := by
  unfold k0_pay11
  refine (congrArg (arg14 (ix2 r k) + ·) (lastAxisSum_apply _ _ reduces_S16x32x512_S16x32 _ _ r k)).trans ?_
  refine congrArg (arg14 (ix2 r k) + ·) (Finset.sum_congr rfl fun j _ => ?_)
  have hs := spread_mid_apply v100 shapeCasts_S16x512_S16x1x512 shapeCasts_S16x1x512_S16x1x512
    broadcasts_S16x1x512_S16x32x512 r k j
  show (v98 (ix3 r k j) - _) * (v98 (ix3 r k j) - _) = _
  rw [hs]
  rfl

/-- Every axis of the one-entry shape has extent one. -/
theorem S1_unit (b : Fin S1.rank) : S1.size b = 1 := by
  match b with
  | ⟨0, _⟩ => rfl

theorem pay12_eq (v66_0 v66_1 : FVec Ideal S16x32 .f32) :
    k0_pay12 (F := Ideal) v66_0 v66_1 = ∑ r : Fin 16, ∑ k : Fin 32, wSub (v66_1 (ix2 r k)) * v66_0 (ix2 r k) := by
  unfold k0_pay12
  refine Eq.trans (Ideal.multiReduction_add_total _ 0x00000000#32 reduces_S1x16x1_S1 S1_unit (.inl rfl) rfl _) ?_
  rw [sum_idx3, Fin.sum_univ_one]
  refine Finset.sum_congr rfl fun b _ => ?_
  rw [Fin.sum_univ_one]
  refine (shapeCast_ab_1ab_apply _ shapeCasts_S16x1_S1x16x1 (0 : Fin 1) b (0 : Fin 1)).trans ?_
  refine (shapeCast_a_a1_apply _ shapeCasts_S16_S16x1 b (0 : Fin 1)).trans ?_
  refine (laneSum_apply _ _ reduces_S16x32_S16 _ _ b).trans ?_
  exact Finset.sum_congr rfl fun k _ => rfl

/-- A coordinate below 2^32, as a 32-bit word, equals the zero word exactly when it is zero. -/
theorem cmp_zero (n : Nat) (hn : n < 2 ^ 32) :
    IntOp.cmpi .eq (BitVec.ofNat 32 n) 0#32 = if n = 0 then 1#1 else 0#1 := by
  by_cases h : n = 0
  · subst h; rfl
  · rw [if_neg h]
    have hne : (BitVec.ofNat 32 n == 0#32) = false := by
      rw [beq_eq_false_iff_ne]
      intro he
      have ht := congrArg BitVec.toNat he
      rw [BitVec.toNat_ofNat, Nat.mod_eq_of_lt hn] at ht
      exact h ht
    show BitVec.ofBool (BitVec.ofNat 32 n == 0#32) = 0#1
    rw [hne]; rfl

theorem pay1_apply (v78 : Ideal .f32) (a : Fin 8) (l : Fin 128) :
    k0_pay1 (F := Ideal) v78 (iota .tc S8x128 32 [1] iota_S8x128_d1_w32) (k0_pay13) 0#32 (ix2 a l)
      = if a.val = 0 ∧ l.val = 0 then v78 else Z := by
  unfold k0_pay1 k0_pay13
  show Scalar.select (IntOp.andi (IntOp.cmpi .eq (iota .tc S8x128 32 [0] iota_S8x128_d0_w32 (ix2 a l)) 0#32)
        (IntOp.cmpi .eq (iota .tc S8x128 32 [1] iota_S8x128_d1_w32 (ix2 a l)) 0#32)) v78 Z = _
  rw [iota_single_apply, iota_single_apply]
  show Scalar.select (IntOp.andi (IntOp.cmpi .eq (BitVec.ofNat 32 a.val) 0#32)
        (IntOp.cmpi .eq (BitVec.ofNat 32 l.val) 0#32)) v78 Z = _
  rw [cmp_zero a.val (by have := a.isLt; omega), cmp_zero l.val (by have := l.isLt; omega)]
  by_cases ha : a.val = 0
  · by_cases hl : l.val = 0
    · rw [if_pos ha, if_pos hl, if_pos (show a.val = 0 ∧ l.val = 0 from ⟨ha, hl⟩)]; rfl
    · rw [if_pos ha, if_neg hl, if_neg (show ¬(a.val = 0 ∧ l.val = 0) from fun h => hl h.2)]; rfl
  · by_cases hl : l.val = 0
    · rw [if_neg ha, if_pos hl, if_neg (show ¬(a.val = 0 ∧ l.val = 0) from fun h => ha h.1)]; rfl
    · rw [if_neg ha, if_neg hl, if_neg (show ¬(a.val = 0 ∧ l.val = 0) from fun h => ha h.1)]; rfl

end Cert.KPay

end
-- ==== Proof.KPayColDefs.lean ====
/-
  The stages of the kernel's squared-error payload, named.

  The payload computes, for 16 centres and 32 neighbours each, over one block of 512 output coordinates: the
  decoder's pre-activation at the centre's code (16 × 512), its indicator and its rectified value; the tangent
  (neighbour's code minus centre's code, through the decoder's first layer, 512 × 512 with one row per pair);
  the tangent times the indicator; the decoder's second layer applied to the rectified value (plus bias) and to
  the gated tangent; their sum, the prediction; the squared difference from the neighbour's coordinates; and the
  sum of those squares over the block, added to the running total. Each stage is a definition here and the
  payload is their composition, by unfolding.
-/
import proofs.«418416_j8194797601160_3_alg».proof.Proof.Gen.KernelIdeal.Skeleton
import Idealize.ShloMosaic.PureOps.Ideal

noncomputable section

namespace Cert.KPayCol

open Cert.KernelIdeal Cert.KernelIdeal.Gen Idealize.ShloMosaic

/-- The pre-activation of the decoder's hidden layer at each centre's code, [16, 512]. -/
def preV (v9 : FVec Ideal S64x512 .bf16) (v10 : Vec Ideal S512 .f32) (v22 : FVec Ideal S16x64 .f32) : FVec Ideal S16x512 .f32 :=
  addf (matmul dot_S16x64_S64x512_S16x512_1_0_0_1_n_n none (truncf .bf16 v22 bitsLt_bf16_f32) v9 (constant S16x512 .f32 0x00000000#32))
    (broadcastTo S16x512 (shapeCast S1x512 v10 shapeCasts_S512_S1x512) broadcasts_S1x512_S16x512)

/-- The indicator of a positive pre-activation as a number, [16, 512]. -/
def gateV (v9 : FVec Ideal S64x512 .bf16) (v10 : Vec Ideal S512 .f32) (v22 : FVec Ideal S16x64 .f32) : FVec Ideal S16x512 .f32 :=
  sitofp .f32 (extui 32 (cmpf .ogt (preV v9 v10 v22) (broadcast S16x512 (Scalar.ofBits (F := Ideal) .f32 0x00000000#32))) natLt_1_32)

/-- The rectified pre-activation, [16, 512]. -/
def reluV (v9 : FVec Ideal S64x512 .bf16) (v10 : Vec Ideal S512 .f32) (v22 : FVec Ideal S16x64 .f32) : FVec Ideal S16x512 .f32 :=
  maximumf (preV v9 v10 v22) (broadcast S16x512 (Scalar.ofBits (F := Ideal) .f32 0x00000000#32))

/-- The tangent through the first layer, one row per (centre, neighbour) pair, [512, 512]. -/
def tangV (v9 : FVec Ideal S64x512 .bf16) (v36 : FVec Ideal S16x32x64 .f32) (v38 : FVec Ideal S16x1x64 .f32) : FVec Ideal S512x512 .f32 :=
  matmul dot_S512x64_S64x512_S512x512_1_0_0_1_n_n none
    (truncf .bf16 (shapeCast S512x64 (subf v36 (broadcastTo S16x32x64 v38 broadcasts_S16x1x64_S16x32x64)) shapeCasts_S16x32x64_S512x64)
      bitsLt_bf16_f32)
    v9 (constant S512x512 .f32 0x00000000#32)

/-- The tangent times the indicator, one row per pair, [512, 512]. -/
def dactV (v9 : FVec Ideal S64x512 .bf16) (v10 : Vec Ideal S512 .f32) (v22 : FVec Ideal S16x64 .f32)
    (v36 : FVec Ideal S16x32x64 .f32) (v38 : FVec Ideal S16x1x64 .f32) : FVec Ideal S512x512 .bf16 :=
  truncf .bf16
    (shapeCast S512x512
      (mulf (shapeCast S16x32x512 (tangV v9 v36 v38) shapeCasts_S512x512_S16x32x512)
        (broadcastTo S16x32x512
          (shapeCast S16x1x512 (shapeCast S16x1x512 (gateV v9 v10 v22) shapeCasts_S16x512_S16x1x512) shapeCasts_S16x1x512_S16x1x512)
          broadcasts_S16x1x512_S16x32x512))
      shapeCasts_S16x32x512_S512x512)
    bitsLt_bf16_f32

/-- The second layer at the rectified value, plus its bias, [16, 512]. -/
def baseV (v9 : FVec Ideal S64x512 .bf16) (v10 : Vec Ideal S512 .f32) (v22 : FVec Ideal S16x64 .f32)
    (v93 : Vec Ideal S512x512 .bf16) (v96 : Vec Ideal S512 .f32) : FVec Ideal S16x512 .f32 :=
  addf (matmul dot_S16x512_S512x512_S16x512_1_0_0_1_n_n none (truncf .bf16 (reluV v9 v10 v22) bitsLt_bf16_f32)
      (shapeCast S512x512 v93 shapeCasts_S512x512_S512x512 : FVec Ideal S512x512 .bf16) (constant S16x512 .f32 0x00000000#32))
    (broadcastTo S16x512 (shapeCast S1x512 v96 shapeCasts_S512_S1x512) broadcasts_S1x512_S16x512)

/-- The second layer at the gated tangent, one row per pair, [512, 512]. -/
def corrV (v9 : FVec Ideal S64x512 .bf16) (v10 : Vec Ideal S512 .f32) (v22 : FVec Ideal S16x64 .f32)
    (v36 : FVec Ideal S16x32x64 .f32) (v38 : FVec Ideal S16x1x64 .f32) (v93 : Vec Ideal S512x512 .bf16) : FVec Ideal S512x512 .f32 :=
  matmul dot_S512x512_S512x512_S512x512_1_0_0_1_n_n none (dactV v9 v10 v22 v36 v38)
    (shapeCast S512x512 v93 shapeCasts_S512x512_S512x512 : FVec Ideal S512x512 .bf16) (constant S512x512 .f32 0x00000000#32)

/-- The prediction: the base spread over the neighbours plus the correction, [16, 32, 512]. -/
def predV (v9 : FVec Ideal S64x512 .bf16) (v10 : Vec Ideal S512 .f32) (v22 : FVec Ideal S16x64 .f32)
    (v36 : FVec Ideal S16x32x64 .f32) (v38 : FVec Ideal S16x1x64 .f32) (v93 : Vec Ideal S512x512 .bf16) (v96 : Vec Ideal S512 .f32) :
    FVec Ideal S16x32x512 .f32 :=
  addf
    (broadcastTo S16x32x512
      (shapeCast S16x1x512 (shapeCast S16x1x512 (baseV v9 v10 v22 v93 v96) shapeCasts_S16x512_S16x1x512) shapeCasts_S16x1x512_S16x1x512)
      broadcasts_S16x1x512_S16x32x512)
    (shapeCast S16x32x512 (corrV v9 v10 v22 v36 v38 v93) shapeCasts_S512x512_S16x32x512)

/-- The squared prediction error, [16, 32, 512]. -/
def errV (v9 : FVec Ideal S64x512 .bf16) (v10 : Vec Ideal S512 .f32) (v22 : FVec Ideal S16x64 .f32)
    (v36 : FVec Ideal S16x32x64 .f32) (v38 : FVec Ideal S16x1x64 .f32) (v93 : Vec Ideal S512x512 .bf16) (v96 : Vec Ideal S512 .f32)
    (v98 : Vec Ideal S16x32x512 .f32) : FVec Ideal S16x32x512 .f32 :=
  mulf (subf v98 (predV v9 v10 v22 v36 v38 v93 v96)) (subf v98 (predV v9 v10 v22 v36 v38 v93 v96))

/-- The payload is the running total plus the sum over the block of the squared errors. -/
theorem pay10_eq (v9 : FVec Ideal S64x512 .bf16) (v10 : Vec Ideal S512 .f32) (v22 : FVec Ideal S16x64 .f32)
    (v36 : FVec Ideal S16x32x64 .f32) (v38 : FVec Ideal S16x1x64 .f32) (arg13 : FVec Ideal S16x32 .f32)
    (v93 : Vec Ideal S512x512 .bf16) (v96 : Vec Ideal S512 .f32) (v98 : Vec Ideal S16x32x512 .f32) :
    k0_pay10 (F := Ideal) v9 v10 v22 v36 v38 arg13 v93 v96 v98
      = addf arg13 (multiReduction (F := Ideal) .add [2] S16x32 (errV v9 v10 v22 v36 v38 v93 v96 v98) 0x00000000#32
          reduces_S16x32x512_S16x32 (.inl rfl) rfl) := rfl

end Cert.KPayCol

end
-- ==== Proof.KPayColLayout.lean ====
/-
  Reshapes between a rank-3 array [a, b, c] and its flattening [a·b, c], a middle unit axis added to a rank-2
  array, a middle unit axis spread over b rows, and the sum over the last axis of a rank-3 array, each read at an
  index given by its coordinates.

  Row-major order puts entry (i, j, l) of [a, b, c] at position (i·b + j)·c + l, which is entry (i·b + j, l) of
  the flat array, so the two reshapes move no entry; a broadcast along a unit axis repeats the one entry there; the
  sum over the last axis at (i, j) ranges over the entries (i, j, l).
-/
import Idealize.ShloMosaic.PureOps.Ideal.Laws
import Idealize.ShloMosaic.Lib.Pipeline.Value
import Idealize.ShloMosaic.Lib.ValueIdx

noncomputable section

open scoped BigOperators

namespace Cert.KPayCol

open Idealize.ShloMosaic Idealize.ShloMosaic.ValueIdx

variable {α : Type}

/-- [a, b, c] flattened to [m, c]: row p = i·b + j of the flat array is the row (i, j). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (l : Fin c) (p : Fin m)
    (hp : p.val = i.val * b + j.val) : shapeCast ⟨2, ![m, c]⟩ x h (ix2 p l) = x (ix3 i j l) :=
  shapeCast_apply x h _ _ (by
    rw [Shape.rowMajor_val_three, Shape.rowMajor_val_two]
    show (i.val * b + j.val) * c + l.val = p.val * c + l.val
    rw [hp])

/-- [m, c] unflattened to [a, b, c]: the row (i, j) is row p = i·b + j of the flat array. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (l : Fin c) (p : Fin m)
    (hp : p.val = i.val * b + j.val) : shapeCast ⟨3, ![a, b, c]⟩ x h (ix3 i j l) = x (ix2 p l) :=
  shapeCast_apply x h _ _ (by
    rw [Shape.rowMajor_val_three, Shape.rowMajor_val_two]
    show p.val * c + l.val = (i.val * b + j.val) * c + l.val
    rw [hp])

/-- [a, c] with a unit axis put in the middle, [a, 1, c]: entry (i, u, l) is entry (i, l). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (l : Fin c) :
    shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- [a, 1, c] spread over b rows, [a, b, c]: entry (i, j, l) is the entry (i, 0, l). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

variable {φ : FTy}

/-- The sum over the last axis of an [a, b, c] array, at (i, j): the sum of the entries (i, j, l). -/
theorem laneSum3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) := by
  refine (Ideal.multiReduction_add_single src acc h hφ hacc (ix2 i j)).trans ?_
  show ∑ l : Fin c, src (h.lift (ix2 i j) l) = _
  refine Finset.sum_congr rfl fun l _ => congrArg src (funext fun d => Fin.ext ?_)
  match d with
  | ⟨0, _⟩ => rfl
  | ⟨1, _⟩ => rfl
  | ⟨2, _⟩ => rfl

end Cert.KPayCol

end
-- ==== Proof.KPayCol.lean ====
/-
  The kernel's squared-error payload read at a (centre, neighbour) index.

  Stage by stage, at explicit coordinates: the pre-activation at (r, h) is the code of centre r through the first
  layer plus its bias; the indicator and the rectified value follow entrywise. The tangent's row for the pair
  (r, k) is row 32·r + k of a [512, 512] array, because the [16, 32, ·] arrays are flattened in row-major order;
  its entry h is the difference of the two codes through the first layer. The second layer turns the rectified
  value into the base prediction of centre r and the gated tangent into the correction of the pair (r, k); their
  sum against the neighbour's coordinate, squared, is one coordinate's error, and the payload adds the sum of the
  block's 512 errors to the running total.
-/
import proofs.«418416_j8194797601160_3_alg».proof.Proof.KPayColDefs
import proofs.«418416_j8194797601160_3_alg».proof.Proof.KPayColLayout
import proofs.«418416_j8194797601160_3_alg».proof.Proof.Spec
import proofs.«418416_j8194797601160_3_alg».proof.Proof.LibDot
import Idealize.ShloMosaic.Lib.ValueLayout

noncomputable section

open scoped BigOperators

namespace Cert.KPayCol

open Cert.KernelIdeal Cert.KernelIdeal.Gen Cert.Spec Idealize.ShloMosaic Idealize.ShloMosaic.ValueIdx

/-- The pre-activation at (r, h). -/
theorem preV_apply (v9 : FVec Ideal S64x512 .bf16) (v10 : Vec Ideal S512 .f32) (v22 : FVec Ideal S16x64 .f32)
    (r : Fin 16) (h : Fin 512) :
    preV v9 v10 v22 (ix2 r h)
      = pre (fun z h => v9 (ix2 z h)) (fun h => v10 (ix1 h)) (fun z => v22 (ix2 r z)) h := by
  unfold preV pre
  rw [addf_apply]
  refine congrArg₂ (· + ·) ?_ ?_
  · exact Cert.Lib.Dot.matmul0_rc dot_S16x64_S64x512_S16x512_1_0_0_1_n_n ⟨rfl, rfl, rfl, rfl, rfl, rfl⟩ _ v9 r h
  · exact (broadcastTo_1b_ab_apply _ _ r h).trans (shapeCast_a_1a_apply v10 _ 0 h)

/-- The indicator at (r, h). -/
theorem gateV_apply (v9 : FVec Ideal S64x512 .bf16) (v10 : Vec Ideal S512 .f32) (v22 : FVec Ideal S16x64 .f32)
    (r : Fin 16) (h : Fin 512) :
    gateV v9 v10 v22 (ix2 r h)
      = gate (pre (fun z h => v9 (ix2 z h)) (fun h => v10 (ix1 h)) (fun z => v22 (ix2 r z)) h) := by
  unfold gateV gate
  rw [sitofp_apply, extui_apply, cmpf_apply, preV_apply]
  rfl

/-- The rectified value at (r, h). -/
theorem reluV_apply (v9 : FVec Ideal S64x512 .bf16) (v10 : Vec Ideal S512 .f32) (v22 : FVec Ideal S16x64 .f32)
    (r : Fin 16) (h : Fin 512) :
    reluV v9 v10 v22 (ix2 r h)
      = max (pre (fun z h => v9 (ix2 z h)) (fun h => v10 (ix1 h)) (fun z => v22 (ix2 r z)) h) Z := by
  unfold reluV
  rw [maximumf_apply, preV_apply]
  rfl

/-- The tangent at row p = 32·r + k, column h. -/
theorem tangV_apply (v9 : FVec Ideal S64x512 .bf16) (v36 : FVec Ideal S16x32x64 .f32) (v38 : FVec Ideal S16x1x64 .f32)
    (r : Fin 16) (k : Fin 32) (p : Fin 512) (hp : p.val = r.val * 32 + k.val) (h : Fin 512) :
    tangV v9 v36 v38 (ix2 p h)
      = tang (fun z h => v9 (ix2 z h)) (fun z => v38 (ix3 r (0 : Fin 1) z)) (fun z => v36 (ix3 r k z)) h := by
  unfold tangV tang
  refine (Cert.Lib.Dot.matmul0_rc dot_S512x64_S64x512_S512x512_1_0_0_1_n_n ⟨rfl, rfl, rfl, rfl, rfl, rfl⟩ _ v9 p h).trans ?_
  refine Finset.sum_congr rfl fun z _ => congrArg (· * v9 (ix2 z h)) ?_
  rw [truncf_apply, shapeCast_abc_mc_apply _ _ r k z p hp, subf_apply, broadcastTo_a1c_abc_apply]

/-- The gated tangent at row p = 32·r + k, column h. -/
theorem dactV_apply (v9 : FVec Ideal S64x512 .bf16) (v10 : Vec Ideal S512 .f32) (v22 : FVec Ideal S16x64 .f32)
    (v36 : FVec Ideal S16x32x64 .f32) (v38 : FVec Ideal S16x1x64 .f32)
    (r : Fin 16) (k : Fin 32) (p : Fin 512) (hp : p.val = r.val * 32 + k.val) (h : Fin 512) :
    dactV v9 v10 v22 v36 v38 (ix2 p h)
      = dactMul (fun z h => v9 (ix2 z h)) (fun h => v10 (ix1 h)) (fun z => v22 (ix2 r z))
          (fun z => v38 (ix3 r (0 : Fin 1) z)) (fun z => v36 (ix3 r k z)) h := by
  unfold dactV dactMul
  rw [truncf_apply, shapeCast_abc_mc_apply _ _ r k h p hp, mulf_apply, shapeCast_mc_abc_apply _ _ r k h p hp,
    tangV_apply v9 v36 v38 r k p hp h, broadcastTo_a1c_abc_apply, shapeCast_self, shapeCast_ac_a1c_apply, gateV_apply]

/-- The base prediction at (r, j). -/
theorem baseV_apply (v9 : FVec Ideal S64x512 .bf16) (v10 : Vec Ideal S512 .f32) (v22 : FVec Ideal S16x64 .f32)
    (v93 : Vec Ideal S512x512 .bf16) (v96 : Vec Ideal S512 .f32) (r : Fin 16) (j : Fin 512) :
    baseV v9 v10 v22 v93 v96 (ix2 r j)
      = (∑ h : Fin 512, max (pre (fun z h => v9 (ix2 z h)) (fun h => v10 (ix1 h)) (fun z => v22 (ix2 r z)) h) Z * v93 (ix2 h j))
          + v96 (ix1 j) := by
  unfold baseV
  rw [addf_apply]
  refine congrArg₂ (· + ·) ?_ ?_
  · refine (Cert.Lib.Dot.matmul0_rc dot_S16x512_S512x512_S16x512_1_0_0_1_n_n ⟨rfl, rfl, rfl, rfl, rfl, rfl⟩ _ _ r j).trans ?_
    refine Finset.sum_congr rfl fun h _ => ?_
    rw [truncf_apply, reluV_apply, shapeCast_self]
  · exact (broadcastTo_1b_ab_apply _ _ r j).trans (shapeCast_a_1a_apply v96 _ 0 j)

/-- The correction at row p = 32·r + k, column j. -/
theorem corrV_apply (v9 : FVec Ideal S64x512 .bf16) (v10 : Vec Ideal S512 .f32) (v22 : FVec Ideal S16x64 .f32)
    (v36 : FVec Ideal S16x32x64 .f32) (v38 : FVec Ideal S16x1x64 .f32) (v93 : Vec Ideal S512x512 .bf16)
    (r : Fin 16) (k : Fin 32) (p : Fin 512) (hp : p.val = r.val * 32 + k.val) (j : Fin 512) :
    corrV v9 v10 v22 v36 v38 v93 (ix2 p j)
      = ∑ h : Fin 512, dactMul (fun z h => v9 (ix2 z h)) (fun h => v10 (ix1 h)) (fun z => v22 (ix2 r z))
          (fun z => v38 (ix3 r (0 : Fin 1) z)) (fun z => v36 (ix3 r k z)) h * v93 (ix2 h j) := by
  unfold corrV
  refine (Cert.Lib.Dot.matmul0_rc dot_S512x512_S512x512_S512x512_1_0_0_1_n_n ⟨rfl, rfl, rfl, rfl, rfl, rfl⟩ _ _ p j).trans ?_
  refine Finset.sum_congr rfl fun h _ => ?_
  rw [dactV_apply v9 v10 v22 v36 v38 r k p hp h, shapeCast_self]

/-- One coordinate's squared error at (r, k, j). -/
theorem errV_apply (v9 : FVec Ideal S64x512 .bf16) (v10 : Vec Ideal S512 .f32) (v22 : FVec Ideal S16x64 .f32)
    (v36 : FVec Ideal S16x32x64 .f32) (v38 : FVec Ideal S16x1x64 .f32) (v93 : Vec Ideal S512x512 .bf16) (v96 : Vec Ideal S512 .f32)
    (v98 : Vec Ideal S16x32x512 .f32) (r : Fin 16) (k : Fin 32) (j : Fin 512) :
    errV v9 v10 v22 v36 v38 v93 v96 v98 (ix3 r k j)
      = colMul (fun z h => v9 (ix2 z h)) (fun h => v10 (ix1 h)) (fun z => v22 (ix2 r z)) (fun z => v38 (ix3 r (0 : Fin 1) z))
          (fun z => v36 (ix3 r k z)) (fun h => v93 (ix2 h j)) (v96 (ix1 j)) (v98 (ix3 r k j)) := by
  have hp : (⟨r.val * 32 + k.val, by omega⟩ : Fin 512).val = r.val * 32 + k.val := rfl
  have hpred : predV v9 v10 v22 v36 v38 v93 v96 (ix3 r k j)
      = ((∑ h : Fin 512, max (pre (fun z h => v9 (ix2 z h)) (fun h => v10 (ix1 h)) (fun z => v22 (ix2 r z)) h) Z * v93 (ix2 h j))
          + v96 (ix1 j))
        + ∑ h : Fin 512, dactMul (fun z h => v9 (ix2 z h)) (fun h => v10 (ix1 h)) (fun z => v22 (ix2 r z))
          (fun z => v38 (ix3 r (0 : Fin 1) z)) (fun z => v36 (ix3 r k z)) h * v93 (ix2 h j) := by
    unfold predV
    rw [addf_apply, broadcastTo_a1c_abc_apply, shapeCast_self, shapeCast_ac_a1c_apply, baseV_apply,
      shapeCast_mc_abc_apply _ _ r k j _ hp, corrV_apply v9 v10 v22 v36 v38 v93 r k _ hp j]
  unfold errV colMul
  rw [mulf_apply, subf_apply, hpred]

/-- The payload at (r, k): the running total plus the sum over the block's 512 coordinates of the squared errors. -/
theorem pay10_apply (v9 : FVec Ideal S64x512 .bf16) (v10 : Vec Ideal S512 .f32) (v22 : FVec Ideal S16x64 .f32)
    (v36 : FVec Ideal S16x32x64 .f32) (v38 : FVec Ideal S16x1x64 .f32) (arg13 : FVec Ideal S16x32 .f32)
    (v93 : Vec Ideal S512x512 .bf16) (v96 : Vec Ideal S512 .f32) (v98 : Vec Ideal S16x32x512 .f32) (r : Fin 16) (k : Fin 32) :
    k0_pay10 (F := Ideal) v9 v10 v22 v36 v38 arg13 v93 v96 v98 (ix2 r k)
      = arg13 (ix2 r k) + ∑ j : Fin 512, colMul (fun z h => v9 (ix2 z h)) (fun h => v10 (ix1 h)) (fun z => v22 (ix2 r z))
          (fun z => v38 (ix3 r (0 : Fin 1) z)) (fun z => v36 (ix3 r k z)) (fun h => v93 (ix2 h j)) (v96 (ix1 j)) (v98 (ix3 r k j)) := by
  rw [pay10_eq, addf_apply]
  refine congrArg (arg13 (ix2 r k) + ·) ?_
  refine (laneSum3_apply _ _ _ _ _ r k).trans ?_
  exact Finset.sum_congr rfl fun j _ => errV_apply v9 v10 v22 v36 v38 v93 v96 v98 r k j

end Cert.KPayCol

end
-- ==== Proof.SpecAlg.lean ====
/-
  The algebra that joins the two programs' forms of the weighted error.

  Multiplying the tangent by the 0/1 indicator of a positive pre-activation is selecting between the tangent and
  zero (on the extended reals x·1 = x and x·0 = 0 for every x, the infinities included); a difference from zero
  is a negation; a sum over 2048 coordinates is the sum of four sums over consecutive 512-wide slices, and the
  same for 512 rows cut into 32 blocks of 16; an [256, 128] array that is zero except at the corners of its 32
  consecutive [8, 128] tiles sums to the sum of the corners. Only commutativity and associativity of the sum are
  used: no finiteness.
-/
import proofs.«418416_j8194797601160_3_alg».proof.Proof.Spec
import Mathlib.Algebra.BigOperators.Fin
import Mathlib.Logic.Equiv.Fin.Basic

noncomputable section

open scoped BigOperators

namespace Cert.Spec

open Idealize.ShloMosaic Idealize.ShloMosaic.ValueIdx

theorem Z_eq : Z = 0 := Ideal.ofBits_zero_f32

/-- The indicator as a number times the tangent is the selection between the tangent and zero. -/
theorem mul_gate (p t : EReal) :
    t * gate p = Scalar.select (FloatOps.cmpf (F := Ideal) (φ := .f32) .ogt p Z) t Z := by
  unfold gate
  generalize FloatOps.cmpf (F := Ideal) (φ := .f32) .ogt p Z = b
  by_cases hb : b = 1#1
  · subst hb
    rw [ValueIdx.select_one]
    show t * ((((1#1 : BitVec 1).setWidth 32).toInt : ℝ) : EReal) = t
    have h1 : ((1#1 : BitVec 1).setWidth 32).toInt = 1 := by decide
    rw [h1]
    simp
  · have h0 := ValueIdx.eq_zero_of_ne_one hb
    subst h0
    rw [ValueIdx.select_zero]
    show t * ((((0#1 : BitVec 1).setWidth 32).toInt : ℝ) : EReal) = Z
    have h1 : ((0#1 : BitVec 1).setWidth 32).toInt = 0 := by decide
    rw [h1, Z_eq]
    simp

theorem dactMul_eq (V1 : Fin 64 → Fin 512 → EReal) (c1 : Fin 512 → EReal) (zc zn : Fin 64 → EReal) (h : Fin 512) :
    dactMul V1 c1 zc zc zn h = dactSel V1 c1 zc zn h := mul_gate _ _

theorem colMul_eq (V1 : Fin 64 → Fin 512 → EReal) (c1 : Fin 512 → EReal) (zc zn : Fin 64 → EReal)
    (v2 : Fin 512 → EReal) (c2d xnd : EReal) :
    colMul V1 c1 zc zc zn v2 c2d xnd = colSel V1 c1 zc zn v2 c2d xnd := by
  unfold colMul colSel
  simp only [dactMul_eq]

theorem wSub_eq (s : EReal) : wSub s = wNeg s := by
  unfold wSub wNeg
  rw [Z_eq, zero_sub]

/-- A sum over m·n indices as m sums over consecutive runs of n. -/
theorem sum_runs {M : Type*} [AddCommMonoid M] (m n : ℕ) (f : Fin (m * n) → M) :
    ∑ i : Fin m, ∑ j : Fin n, f (finProdFinEquiv (i, j)) = ∑ d : Fin (m * n), f d := by
  rw [← Equiv.sum_comp (finProdFinEquiv (m := m) (n := n)) f, Fintype.sum_prod_type]

/-- 2048 coordinates as four slices of 512. -/
theorem sum_slices {M : Type*} [AddCommMonoid M] (f : Fin 2048 → M) :
    ∑ s : Fin 4, ∑ j : Fin 512, f ⟨512 * s.val + j.val, by have := s.isLt; have := j.isLt; omega⟩ = ∑ d : Fin 2048, f d := by
  rw [← sum_runs 4 512 f]
  refine Finset.sum_congr rfl fun s _ => Finset.sum_congr rfl fun j _ => congrArg f (Fin.ext ?_)
  show 512 * s.val + j.val = j.val + 512 * s.val
  omega

/-- 512 rows as 32 blocks of 16. -/
theorem sum_blocks {M : Type*} [AddCommMonoid M] (f : Fin 512 → M) :
    ∑ t : Fin 32, ∑ r : Fin 16, f ⟨16 * t.val + r.val, by have := t.isLt; have := r.isLt; omega⟩ = ∑ b : Fin 512, f b := by
  rw [← sum_runs 32 16 f]
  refine Finset.sum_congr rfl fun t _ => Finset.sum_congr rfl fun r _ => congrArg f (Fin.ext ?_)
  show 16 * t.val + r.val = r.val + 16 * t.val
  omega

/-- Four slice sums added one after another onto a start are the start plus their total. -/
theorem acc4 (z : EReal) (a : Fin 4 → EReal) : (((z + a 0) + a 1) + a 2) + a 3 = z + ∑ s : Fin 4, a s := by
  rw [Fin.sum_univ_four, add_assoc, add_assoc, add_assoc, ← add_assoc (a 0), ← add_assoc (a 0 + a 1)]

/-- An array of 32 stacked [8, 128] tiles, zero except at each tile's corner, sums to the sum of the corners. -/
theorem sum_corners (p : Fin 32 → EReal) :
    ∑ R : Fin 256, ∑ l : Fin 128,
        (if h : R.val % 8 = 0 ∧ l.val = 0 then p ⟨R.val / 8, by have := R.isLt; omega⟩ else (0 : EReal))
      = ∑ t : Fin 32, p t := by
  rw [← sum_runs 32 8 (fun R : Fin 256 => ∑ l : Fin 128,
        (if h : R.val % 8 = 0 ∧ l.val = 0 then p ⟨R.val / 8, by have := R.isLt; omega⟩ else (0 : EReal)))]
  refine Finset.sum_congr rfl fun t _ => ?_
  rw [Finset.sum_eq_single (0 : Fin 8)]
  · rw [Finset.sum_eq_single (0 : Fin 128)]
    · have hv : (finProdFinEquiv (t, (0 : Fin 8)) : Fin (32 * 8)).val = 8 * t.val := by
        show (0 : Fin 8).val + 8 * t.val = 8 * t.val
        simp
      rw [dif_pos ⟨by rw [hv]; omega, rfl⟩]
      exact congrArg p (Fin.ext (by show (finProdFinEquiv (t, (0 : Fin 8)) : Fin (32 * 8)).val / 8 = t.val; rw [hv]; omega))
    · intro l _ hl
      rw [dif_neg]
      rintro ⟨-, h⟩
      exact hl (Fin.ext h)
    · intro h; exact absurd (Finset.mem_univ _) h
  · intro a _ ha
    refine Finset.sum_eq_zero fun l _ => ?_
    rw [dif_neg]
    rintro ⟨h, -⟩
    have hv : (finProdFinEquiv (t, a) : Fin (32 * 8)).val = a.val + 8 * t.val := rfl
    rw [hv] at h
    have := a.isLt
    exact ha (Fin.ext (by show a.val = 0; omega))
  · intro h; exact absurd (Finset.mem_univ _) h

end Cert.Spec

end
-- ==== Proof.KBlock.lean ====
/-
  One grid point's tile as a value of its input blocks.

  At a grid point the body holds 16 centres (block x0), their 16·32 neighbours (block x1) and the whole weight
  arrays (x2 … x9). The loop's carried pair after its four trips is, at centre r and neighbour k, the squared
  prediction error and the squared distance summed over all 2048 coordinates, slice by slice from zero; the tile
  stored is the sum over the 16·32 pairs of the Gaussian-weighted errors, in its corner, and zero elsewhere.
-/
import proofs.«418416_j8194797601160_3_alg».proof.Proof.KRun
import proofs.«418416_j8194797601160_3_alg».proof.Proof.KPayEnc
import proofs.«418416_j8194797601160_3_alg».proof.Proof.KPayTail
import proofs.«418416_j8194797601160_3_alg».proof.Proof.KPayCol
import proofs.«418416_j8194797601160_3_alg».proof.Proof.SpecAlg

set_option maxRecDepth 16384

noncomputable section

open scoped BigOperators

namespace Cert.KBlock

open Cert.KernelIdeal Cert.KernelIdeal.Gen Cert.Spec Cert.KRun Cert.KPay Cert.KPayCol
open Idealize.ShloMosaic Idealize.ShloMosaic.TcCoe Idealize.ShloMosaic.ValueIdx

/-- A load through a unit-stride rectangle reads the array at the offset plus the local coordinate. -/
theorem ld_at {S : Shape} {Val : EltTy → Type} {e : EltTy} (X : S.Idx → Val e) (off size : Fin S.rank → Nat) (inb : ∀ a, off a + size a ≤ S.size a)
    (j : (Rect.unit (s := S) off size inb).shape.Idx) (i : S.Idx) (h : ∀ a, (i a).val = off a + (j a).val) :
    View.ld X (Rect.unit (s := S) off size inb) j = X i := by
  show X ((Rect.unit (s := S) off size inb).emb j) = X i
  refine congrArg X (funext fun a => Fin.ext ?_)
  rw [Rect.emb_apply, h a]
  show off a + 1 * (j a).val = off a + (j a).val
  rw [Nat.one_mul]

/-- The loop makes four trips. -/
theorem trips_eq : k0_t1_loop.trips = 4 := by decide +kernel

/-- Trip s of the four, as a trip of the loop. -/
abbrev tripOf (s : Fin 4) : Fin k0_t1_loop.trips := ⟨s.val, lt_of_lt_of_eq s.isLt trips_eq.symm⟩

/-- Coordinate j of slice s. -/
abbrev sl (s : Fin 4) (j : Fin 512) : Fin 2048 := ⟨512 * s.val + j.val, by have := s.isLt; have := j.isLt; omega⟩

theorem ld8 (x8 : Vec Ideal S512x2048 .bf16) (s : Fin 4) (h j : Fin 512) :
    View.ld x8 (Rect.unit (s := S512x2048) (k0_off1 (tripOf s)) ![512, 512] (k0_off1_inb (tripOf s))) (ix2 h j) = x8 (ix2 h (sl s j)) :=
  ld_at x8 _ _ _ (ix2 h j) (ix2 h (sl s j)) (fun a => by
    have e : k0_off1 (tripOf s) a = (![0, 512 * (tripOf s).val] : Fin 2 → Nat) a := congrFun (k0_off1_eq (tripOf s)) a
    match a, e with
    | ⟨0, _⟩, e =>
      have e' : k0_off1 (tripOf s) 0 = 0 := e
      show h.val = k0_off1 (tripOf s) 0 + h.val
      omega
    | ⟨1, _⟩, e =>
      have e' : k0_off1 (tripOf s) 1 = 512 * s.val := e
      show 512 * s.val + j.val = k0_off1 (tripOf s) 1 + j.val
      omega)

theorem ld9 (x9 : Vec Ideal S2048 .f32) (s : Fin 4) (j : Fin 512) :
    View.ld x9 (Rect.unit (s := S2048) (k0_off2 (tripOf s)) ![512] (k0_off2_inb (tripOf s))) (ix1 j) = x9 (ix1 (sl s j)) :=
  ld_at x9 _ _ _ (ix1 j) (ix1 (sl s j)) (fun a => by
    have e : k0_off2 (tripOf s) a = (![512 * (tripOf s).val] : Fin 1 → Nat) a := congrFun (k0_off2_eq (tripOf s)) a
    match a, e with
    | ⟨0, _⟩, e =>
      have e' : k0_off2 (tripOf s) 0 = 512 * s.val := e
      show 512 * s.val + j.val = k0_off2 (tripOf s) 0 + j.val
      omega)

theorem ld1 (x1 : Vec Ideal S16x32x2048 .f32) (s : Fin 4) (r : Fin 16) (k : Fin 32) (j : Fin 512) :
    View.ld x1 (Rect.unit (s := S16x32x2048) (k0_off3 (tripOf s)) ![16, 32, 512] (k0_off3_inb (tripOf s))) (ix3 r k j) = x1 (ix3 r k (sl s j)) :=
  ld_at x1 _ _ _ (ix3 r k j) (ix3 r k (sl s j)) (fun a => by
    have e : k0_off3 (tripOf s) a = (![0, 0, 512 * (tripOf s).val] : Fin 3 → Nat) a := congrFun (k0_off3_eq (tripOf s)) a
    match a, e with
    | ⟨0, _⟩, e =>
      have e' : k0_off3 (tripOf s) 0 = 0 := e
      show r.val = k0_off3 (tripOf s) 0 + r.val
      omega
    | ⟨1, _⟩, e =>
      have e' : k0_off3 (tripOf s) 1 = 0 := e
      show k.val = k0_off3 (tripOf s) 1 + k.val
      omega
    | ⟨2, _⟩, e =>
      have e' : k0_off3 (tripOf s) 2 = 512 * s.val := e
      show 512 * s.val + j.val = k0_off3 (tripOf s) 2 + j.val
      omega)

theorem ld0 (x0 : Vec Ideal S16x2048 .f32) (s : Fin 4) (r : Fin 16) (j : Fin 512) :
    View.ld x0 (Rect.unit (s := S16x2048) (k0_off4 (tripOf s)) ![16, 512] (k0_off4_inb (tripOf s))) (ix2 r j) = x0 (ix2 r (sl s j)) :=
  ld_at x0 _ _ _ (ix2 r j) (ix2 r (sl s j)) (fun a => by
    have e : k0_off4 (tripOf s) a = (![0, 512 * (tripOf s).val] : Fin 2 → Nat) a := congrFun (k0_off4_eq (tripOf s)) a
    match a, e with
    | ⟨0, _⟩, e =>
      have e' : k0_off4 (tripOf s) 0 = 0 := e
      show r.val = k0_off4 (tripOf s) 0 + r.val
      omega
    | ⟨1, _⟩, e =>
      have e' : k0_off4 (tripOf s) 1 = 512 * s.val := e
      show 512 * s.val + j.val = k0_off4 (tripOf s) 1 + j.val
      omega)

section Block

variable (c : Dev nD) (i : grid0.Coords) (arg1 : Memref sig .tc .vmem S16x2048 .f32) (harg1 : arg1.IsWhole) (arg2 : Memref sig .tc .vmem S16x32x2048 .f32) (harg2 : arg2.IsWhole) (arg3 : Memref sig .tc .vmem S2048x512 .bf16) (harg3 : arg3.IsWhole) (arg4 : Memref sig .tc .vmem S512 .f32) (harg4 : arg4.IsWhole) (arg5 : Memref sig .tc .vmem S512x64 .bf16) (harg5 : arg5.IsWhole) (arg6 : Memref sig .tc .vmem S64 .f32) (harg6 : arg6.IsWhole) (arg7 : Memref sig .tc .vmem S64x512 .bf16) (harg7 : arg7.IsWhole) (arg8 : Memref sig .tc .vmem S512 .f32) (harg8 : arg8.IsWhole) (arg9 : Memref sig .tc .vmem S512x2048 .bf16) (harg9 : arg9.IsWhole) (arg10 : Memref sig .tc .vmem S2048 .f32) (harg10 : arg10.IsWhole) (arg11 : Memref sig .tc .vmem S8x128 .f32) (harg11 : arg11.IsWhole) (x0 : Vec Ideal S16x2048 .f32) (x1 : Vec Ideal S16x32x2048 .f32) (x2 : Vec Ideal S2048x512 .bf16) (x3 : Vec Ideal S512 .f32) (x4 : Vec Ideal S512x64 .bf16) (x5 : Vec Ideal S64 .f32) (x6 : Vec Ideal S64x512 .bf16) (x7 : Vec Ideal S512 .f32) (x8 : Vec Ideal S512x2048 .bf16) (x9 : Vec Ideal S2048 .f32)

/-- The centre's code, the neighbour's code. -/
abbrev zc (r : Fin 16) : Fin 64 → EReal := enc (fun d h => x2 (ix2 d h)) (fun h => x3 (ix1 h)) (fun h z => x4 (ix2 h z)) (fun z => x5 (ix1 z)) (fun d => x0 (ix2 r d))
abbrev zn (r : Fin 16) (k : Fin 32) : Fin 64 → EReal := enc (fun d h => x2 (ix2 d h)) (fun h => x3 (ix1 h)) (fun h z => x4 (ix2 h z)) (fun z => x5 (ix1 z)) (fun d => x1 (ix3 r k d))

/-- One coordinate's squared prediction error for the pair (r, k). -/
abbrev errAt (r : Fin 16) (k : Fin 32) (d : Fin 2048) : EReal :=
  colMul (fun z h => x6 (ix2 z h)) (fun h => x7 (ix1 h)) (zc x0 x2 x3 x4 x5 r) (zc x0 x2 x3 x4 x5 r) (zn x1 x2 x3 x4 x5 r k)
    (fun h => x8 (ix2 h d)) (x9 (ix1 d)) (x1 (ix3 r k d))

/-- One coordinate's squared distance for the pair (r, k). -/
abbrev distAt (r : Fin 16) (k : Fin 32) (d : Fin 2048) : EReal := dsq (x0 (ix2 r d)) (x1 (ix3 r k d))

/-- What trip s adds to the carried pair. -/
theorem step (s : Fin 4) (r : Fin 16) (k : Fin 32) :
    ((st_k0_t1 (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) (s.val + 1)).1 (ix2 r k)
        = (st_k0_t1 (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) s.val).1 (ix2 r k) + ∑ j : Fin 512, errAt x0 x1 x2 x3 x4 x5 x6 x7 x8 x9 r k (sl s j))
    ∧ ((st_k0_t1 (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) (s.val + 1)).2 (ix2 r k)
        = (st_k0_t1 (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) s.val).2 (ix2 r k) + ∑ j : Fin 512, distAt x0 x1 r k (sl s j)) := by
  have hs := st_k0_t1_succ (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) (tripOf s)
  rw [trip_eq] at hs
  constructor
  · refine (congrFun (congrArg Prod.fst hs) (ix2 r k)).trans ?_
    dsimp only
    rw [pay10_apply]
    refine congrArg (_ + ·) (Finset.sum_congr rfl fun j _ => ?_)
    simp only [pay4_apply, pay5_apply, pay6_apply, pay7_apply]
    exact congr (congr (congrArg (colMul _ _ _ _ _) (funext fun h => ld8 x8 s h j)) (ld9 x9 s j)) (ld1 x1 s r k j)
  · refine (congrFun (congrArg Prod.snd hs) (ix2 r k)).trans ?_
    dsimp only
    rw [pay11_apply]
    refine congrArg (_ + ·) (Finset.sum_congr rfl fun j _ => ?_)
    exact congr (congrArg dsq (ld0 x0 s r j)) (ld1 x1 s r k j)

/-- Before the first trip the carried pair is the two zero vectors. -/
theorem start (r : Fin 16) (k : Fin 32) :
    (st_k0_t1 (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) 0).1 (ix2 r k) = Z ∧ (st_k0_t1 (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) 0).2 (ix2 r k) = Z := ⟨rfl, rfl⟩

/-- After the fourth trip the carried pair holds, at (r, k), the two sums over all 2048 coordinates, from zero. -/
theorem finish (r : Fin 16) (k : Fin 32) :
    ((st_k0_t1 (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) 4).1 (ix2 r k) = Z + ∑ d : Fin 2048, errAt x0 x1 x2 x3 x4 x5 x6 x7 x8 x9 r k d)
    ∧ ((st_k0_t1 (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) 4).2 (ix2 r k) = Z + ∑ d : Fin 2048, distAt x0 x1 r k d) := by
  have h0 := (step c i arg1 harg1 arg2 harg2 arg3 harg3 arg4 harg4 arg5 harg5 arg6 harg6 arg7 harg7 arg8 harg8 arg9 harg9 arg10 harg10 arg11 harg11 x0 x1 x2 x3 x4 x5 x6 x7 x8 x9 0 r k)
  have h1 := (step c i arg1 harg1 arg2 harg2 arg3 harg3 arg4 harg4 arg5 harg5 arg6 harg6 arg7 harg7 arg8 harg8 arg9 harg9 arg10 harg10 arg11 harg11 x0 x1 x2 x3 x4 x5 x6 x7 x8 x9 1 r k)
  have h2 := (step c i arg1 harg1 arg2 harg2 arg3 harg3 arg4 harg4 arg5 harg5 arg6 harg6 arg7 harg7 arg8 harg8 arg9 harg9 arg10 harg10 arg11 harg11 x0 x1 x2 x3 x4 x5 x6 x7 x8 x9 2 r k)
  have h3 := (step c i arg1 harg1 arg2 harg2 arg3 harg3 arg4 harg4 arg5 harg5 arg6 harg6 arg7 harg7 arg8 harg8 arg9 harg9 arg10 harg10 arg11 harg11 x0 x1 x2 x3 x4 x5 x6 x7 x8 x9 3 r k)
  have hs := start c i arg1 harg1 arg2 harg2 arg3 harg3 arg4 harg4 arg5 harg5 arg6 harg6 arg7 harg7 arg8 harg8 arg9 harg9 arg10 harg10 arg11 harg11 x0 x1 x2 x3 x4 x5 x6 x7 x8 x9 r k
  constructor
  · have e : (st_k0_t1 (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) 4).1 (ix2 r k)
        = (((Z + (fun s : Fin 4 => ∑ j : Fin 512, errAt x0 x1 x2 x3 x4 x5 x6 x7 x8 x9 r k (sl s j)) 0)
            + (fun s : Fin 4 => ∑ j : Fin 512, errAt x0 x1 x2 x3 x4 x5 x6 x7 x8 x9 r k (sl s j)) 1)
            + (fun s : Fin 4 => ∑ j : Fin 512, errAt x0 x1 x2 x3 x4 x5 x6 x7 x8 x9 r k (sl s j)) 2)
            + (fun s : Fin 4 => ∑ j : Fin 512, errAt x0 x1 x2 x3 x4 x5 x6 x7 x8 x9 r k (sl s j)) 3 :=
      h3.1.trans (congrArg (· + _) (h2.1.trans (congrArg (· + _) (h1.1.trans (congrArg (· + _) (h0.1.trans (congrArg (· + _) hs.1)))))))
    exact e.trans ((acc4 Z _).trans (congrArg (Z + ·) (sum_slices (fun d => errAt x0 x1 x2 x3 x4 x5 x6 x7 x8 x9 r k d))))
  · have e : (st_k0_t1 (F := Ideal) Variants.none c none i arg1 harg1 arg2 harg2 arg3 harg3 arg4 harg4 arg5 harg5 arg6 harg6 arg7 harg7 arg8 harg8 arg9 harg9 arg10 harg10 arg11 harg11 (k0_pay4 x6) x7 (k0_pay5 x0 x2 x3 x4 x5) (k0_pay6 x1 x2 x3 x4 x5) (k0_pay7 x0 x2 x3 x4 x5) (harg1.unread x0) (harg2.unread x1) (harg9.unread x8) (harg10.unread x9) (k0_pay8, k0_pay9) 4).2 (ix2 r k)
        = (((Z + (fun s : Fin 4 => ∑ j : Fin 512, distAt x0 x1 r k (sl s j)) 0)
            + (fun s : Fin 4 => ∑ j : Fin 512, distAt x0 x1 r k (sl s j)) 1)
            + (fun s : Fin 4 => ∑ j : Fin 512, distAt x0 x1 r k (sl s j)) 2)
            + (fun s : Fin 4 => ∑ j : Fin 512, distAt x0 x1 r k (sl s j)) 3 :=
      h3.2.trans (congrArg (· + _) (h2.2.trans (congrArg (· + _) (h1.2.trans (congrArg (· + _) (h0.2.trans (congrArg (· + _) hs.2)))))))
    exact e.trans ((acc4 Z _).trans (congrArg (Z + ·) (sum_slices (fun d => distAt x0 x1 r k d))))

/-- The tile a grid point stores: in its corner the sum over its 16·32 pairs of the weighted errors, zero elsewhere. -/
theorem tile (a : Fin 8) (l : Fin 128) :
    out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 (ix2 a l)
      = if a.val = 0 ∧ l.val = 0 then
          ∑ r : Fin 16, ∑ k : Fin 32,
            termRef (fun d h => x2 (ix2 d h)) (fun h => x3 (ix1 h)) (fun h z => x4 (ix2 h z)) (fun z => x5 (ix1 z))
              (fun z h => x6 (ix2 z h)) (fun h => x7 (ix1 h)) (fun h d => x8 (ix2 h d)) (fun d => x9 (ix1 d))
              (fun d => x0 (ix2 r d)) (fun d => x1 (ix3 r k d))
        else Z := by
  rw [out_piece]
  have h4 : Scf.trips k0_t1_loop.lb k0_t1_loop.ub k0_t1_loop.st = 4 := trips_eq
  rw [h4, pay1_apply, pay12_eq]
  refine if_congr Iff.rfl (Finset.sum_congr rfl fun r _ => Finset.sum_congr rfl fun k _ => ?_) rfl
  rw [(finish c i arg1 harg1 arg2 harg2 arg3 harg3 arg4 harg4 arg5 harg5 arg6 harg6 arg7 harg7 arg8 harg8 arg9 harg9 arg10 harg10 arg11 harg11 x0 x1 x2 x3 x4 x5 x6 x7 x8 x9 r k).1, (finish c i arg1 harg1 arg2 harg2 arg3 harg3 arg4 harg4 arg5 harg5 arg6 harg6 arg7 harg7 arg8 harg8 arg9 harg9 arg10 harg10 arg11 harg11 x0 x1 x2 x3 x4 x5 x6 x7 x8 x9 r k).2, wSub_eq]
  unfold termRef
  simp only [colMul_eq]

end Block

end Cert.KBlock

end
-- ==== Proof.KFinal.lean ====
/-
  The idealized kernel's result as the specification's total.

  At grid point t the body's blocks are rows 16t … 16t + 15 of the centres and of the neighbours and the whole
  weight arrays (the four matrices through a change of float format, which is the identity on the extended
  reals); so the tile point t writes is, in its corner, the sum of the weighted errors over those 16·32 pairs.
  The 32 tiles cover the [256, 128] result array; the host then sums that array — the 32 corners, everything else
  being zero — and divides by the number of pairs: the mean over all 512·32 pairs.
-/
import proofs.«418416_j8194797601160_3_alg».proof.Proof.KBlock
import Idealize.ShloMosaic.Lib.StableHlo.Run
import Idealize.ShloMosaic.Lib.Tactic

set_option maxRecDepth 16384

noncomputable section

open scoped BigOperators

namespace Cert.KFinal

open Cert.KernelIdeal Cert.KernelIdeal.Gen Cert.Spec Cert.KBlock
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The grid has 32 points. -/
theorem N_eq : cfg0.N = 32 := N_0

theorem t_lt (t : Fin cfg0.N) : t.val < 32 := Nat.lt_of_lt_of_eq t.isLt N_eq

/-- The windows' block indices over the grid: the centres, the neighbours and the result move with the point along
    their first axis; every weight array is one block. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-- The four weight matrices as the region finds them: the arguments through a change of float format. -/
theorem V_v0 (c : Dev nD) (i : S2048x512.Idx) : V m c main_v0 i = m ((c : Thread nD τ).loc main_arg2) i := by
  have e : V m c main_v0 = (fun X : FVec Ideal S2048x512 .f32 => (truncf .bf16 X bitsLt_bf16_f32 : FVec Ideal S2048x512 .bf16)) (m ((c : Thread nD τ).loc main_arg2)) := by
    show StableHlo.after hostOps0 (fun b => m (c, b)) (Proc.devRef .tc main_v0) = _
    after_results
  rw [e]
  rfl
theorem V_v1 (c : Dev nD) (i : S512x64.Idx) : V m c main_v1 i = m ((c : Thread nD τ).loc main_arg4) i := by
  have e : V m c main_v1 = (fun X : FVec Ideal S512x64 .f32 => (truncf .bf16 X bitsLt_bf16_f32 : FVec Ideal S512x64 .bf16)) (m ((c : Thread nD τ).loc main_arg4)) := by
    show StableHlo.after hostOps0 (fun b => m (c, b)) (Proc.devRef .tc main_v1) = _
    after_results
  rw [e]
  rfl
theorem V_v2 (c : Dev nD) (i : S64x512.Idx) : V m c main_v2 i = m ((c : Thread nD τ).loc main_arg6) i := by
  have e : V m c main_v2 = (fun X : FVec Ideal S64x512 .f32 => (truncf .bf16 X bitsLt_bf16_f32 : FVec Ideal S64x512 .bf16)) (m ((c : Thread nD τ).loc main_arg6)) := by
    show StableHlo.after hostOps0 (fun b => m (c, b)) (Proc.devRef .tc main_v2) = _
    after_results
  rw [e]
  rfl
theorem V_v3 (c : Dev nD) (i : S512x2048.Idx) : V m c main_v3 i = m ((c : Thread nD τ).loc main_arg8) i := by
  have e : V m c main_v3 = (fun X : FVec Ideal S512x2048 .f32 => (truncf .bf16 X bitsLt_bf16_f32 : FVec Ideal S512x2048 .bf16)) (m ((c : Thread nD τ).loc main_arg8)) := by
    show StableHlo.after hostOps0 (fun b => m (c, b)) (Proc.devRef .tc main_v3) = _
    after_results
  rw [e]
  rfl

/-- The centres' block at point t: rows 16t … 16t + 15. -/
theorem iblk0 (c : Dev nD) (t : Fin cfg0.N) (r : Fin 16) (d : Fin 2048) :
    (iblk m c 0 t : Vec Ideal S16x2048 .f32) (ix2 r d)
      = (m ((c : Thread nD τ).loc main_arg0) : S512x2048.Idx → EReal) (ix2 ⟨16 * t.val + r.val, by have := t_lt t; have := r.isLt; omega⟩ d) := by
  obtain ⟨e0_0, e0_1, e1_0, e1_1, e1_2, e2_0, e2_1, e3_0, e4_0, e4_1, e5_0, e6_0, e6_1, e7_0, e8_0, e8_1, e9_0, e10_0, e10_1⟩ := idx_facts t
  unfold iblk
  rw [View.read_apply]
  show V m c main_arg0 _ = _
  rw [V_main_arg0]
  congr 1
  funext a
  apply Fin.ext
  match a with
  | ⟨0, _⟩ => show win0_0.index t (0 : Fin 2) * 16 + 1 * r.val = 16 * t.val + r.val; rw [e0_0]; omega
  | ⟨1, _⟩ => show win0_0.index t (1 : Fin 2) * 2048 + 1 * d.val = d.val; rw [e0_1]; omega

/-- The neighbours' block at point t: rows 16t … 16t + 15, all 32 neighbours. -/
theorem iblk1 (c : Dev nD) (t : Fin cfg0.N) (r : Fin 16) (k : Fin 32) (d : Fin 2048) :
    (iblk m c 1 t : Vec Ideal S16x32x2048 .f32) (ix3 r k d)
      = (m ((c : Thread nD τ).loc main_arg1) : S512x32x2048.Idx → EReal) (ix3 ⟨16 * t.val + r.val, by have := t_lt t; have := r.isLt; omega⟩ k d) := by
  obtain ⟨e0_0, e0_1, e1_0, e1_1, e1_2, e2_0, e2_1, e3_0, e4_0, e4_1, e5_0, e6_0, e6_1, e7_0, e8_0, e8_1, e9_0, e10_0, e10_1⟩ := idx_facts t
  unfold iblk
  rw [View.read_apply]
  show V m c main_arg1 _ = _
  rw [V_main_arg1]
  congr 1
  funext a
  apply Fin.ext
  match a with
  | ⟨0, _⟩ => show win0_1.index t (0 : Fin 3) * 16 + 1 * r.val = 16 * t.val + r.val; rw [e1_0]; omega
  | ⟨1, _⟩ => show win0_1.index t (1 : Fin 3) * 32 + 1 * k.val = k.val; rw [e1_1]; omega
  | ⟨2, _⟩ => show win0_1.index t (2 : Fin 3) * 2048 + 1 * d.val = d.val; rw [e1_2]; omega

theorem iblk2 (c : Dev nD) (t : Fin cfg0.N) (p : Fin 2048) (q : Fin 512) :
    (iblk m c 2 t : Vec Ideal S2048x512 .bf16) (ix2 p q) = (m ((c : Thread nD τ).loc main_arg2) : S2048x512.Idx → EReal) (ix2 p q) := by
  obtain ⟨e0_0, e0_1, e1_0, e1_1, e1_2, e2_0, e2_1, e3_0, e4_0, e4_1, e5_0, e6_0, e6_1, e7_0, e8_0, e8_1, e9_0, e10_0, e10_1⟩ := idx_facts t
  unfold iblk
  rw [View.read_apply]
  show V m c main_v0 _ = _
  rw [V_v0]
  congr 1
  funext a
  apply Fin.ext
  match a with
  | ⟨0, _⟩ => show win0_2.index t (0 : Fin 2) * 2048 + 1 * p.val = p.val; rw [e2_0]; omega
  | ⟨1, _⟩ => show win0_2.index t (1 : Fin 2) * 512 + 1 * q.val = q.val; rw [e2_1]; omega

theorem iblk3 (c : Dev nD) (t : Fin cfg0.N) (p : Fin 512) :
    (iblk m c 3 t : Vec Ideal S512 .f32) (ix1 p) = (m ((c : Thread nD τ).loc main_arg3) : S512.Idx → EReal) (ix1 p) := by
  obtain ⟨e0_0, e0_1, e1_0, e1_1, e1_2, e2_0, e2_1, e3_0, e4_0, e4_1, e5_0, e6_0, e6_1, e7_0, e8_0, e8_1, e9_0, e10_0, e10_1⟩ := idx_facts t
  unfold iblk
  rw [View.read_apply]
  show V m c main_arg3 _ = _
  rw [V_main_arg3]
  congr 1
  funext a
  apply Fin.ext
  match a with
  | ⟨0, _⟩ => show win0_3.index t (0 : Fin 1) * 512 + 1 * p.val = p.val; rw [e3_0]; omega

theorem iblk4 (c : Dev nD) (t : Fin cfg0.N) (p : Fin 512) (q : Fin 64) :
    (iblk m c 4 t : Vec Ideal S512x64 .bf16) (ix2 p q) = (m ((c : Thread nD τ).loc main_arg4) : S512x64.Idx → EReal) (ix2 p q) := by
  obtain ⟨e0_0, e0_1, e1_0, e1_1, e1_2, e2_0, e2_1, e3_0, e4_0, e4_1, e5_0, e6_0, e6_1, e7_0, e8_0, e8_1, e9_0, e10_0, e10_1⟩ := idx_facts t
  unfold iblk
  rw [View.read_apply]
  show V m c main_v1 _ = _
  rw [V_v1]
  congr 1
  funext a
  apply Fin.ext
  match a with
  | ⟨0, _⟩ => show win0_4.index t (0 : Fin 2) * 512 + 1 * p.val = p.val; rw [e4_0]; omega
  | ⟨1, _⟩ => show win0_4.index t (1 : Fin 2) * 64 + 1 * q.val = q.val; rw [e4_1]; omega

theorem iblk5 (c : Dev nD) (t : Fin cfg0.N) (p : Fin 64) :
    (iblk m c 5 t : Vec Ideal S64 .f32) (ix1 p) = (m ((c : Thread nD τ).loc main_arg5) : S64.Idx → EReal) (ix1 p) := by
  obtain ⟨e0_0, e0_1, e1_0, e1_1, e1_2, e2_0, e2_1, e3_0, e4_0, e4_1, e5_0, e6_0, e6_1, e7_0, e8_0, e8_1, e9_0, e10_0, e10_1⟩ := idx_facts t
  unfold iblk
  rw [View.read_apply]
  show V m c main_arg5 _ = _
  rw [V_main_arg5]
  congr 1
  funext a
  apply Fin.ext
  match a with
  | ⟨0, _⟩ => show win0_5.index t (0 : Fin 1) * 64 + 1 * p.val = p.val; rw [e5_0]; omega

theorem iblk6 (c : Dev nD) (t : Fin cfg0.N) (p : Fin 64) (q : Fin 512) :
    (iblk m c 6 t : Vec Ideal S64x512 .bf16) (ix2 p q) = (m ((c : Thread nD τ).loc main_arg6) : S64x512.Idx → EReal) (ix2 p q) := by
  obtain ⟨e0_0, e0_1, e1_0, e1_1, e1_2, e2_0, e2_1, e3_0, e4_0, e4_1, e5_0, e6_0, e6_1, e7_0, e8_0, e8_1, e9_0, e10_0, e10_1⟩ := idx_facts t
  unfold iblk
  rw [View.read_apply]
  show V m c main_v2 _ = _
  rw [V_v2]
  congr 1
  funext a
  apply Fin.ext
  match a with
  | ⟨0, _⟩ => show win0_6.index t (0 : Fin 2) * 64 + 1 * p.val = p.val; rw [e6_0]; omega
  | ⟨1, _⟩ => show win0_6.index t (1 : Fin 2) * 512 + 1 * q.val = q.val; rw [e6_1]; omega

theorem iblk7 (c : Dev nD) (t : Fin cfg0.N) (p : Fin 512) :
    (iblk m c 7 t : Vec Ideal S512 .f32) (ix1 p) = (m ((c : Thread nD τ).loc main_arg7) : S512.Idx → EReal) (ix1 p) := by
  obtain ⟨e0_0, e0_1, e1_0, e1_1, e1_2, e2_0, e2_1, e3_0, e4_0, e4_1, e5_0, e6_0, e6_1, e7_0, e8_0, e8_1, e9_0, e10_0, e10_1⟩ := idx_facts t
  unfold iblk
  rw [View.read_apply]
  show V m c main_arg7 _ = _
  rw [V_main_arg7]
  congr 1
  funext a
  apply Fin.ext
  match a with
  | ⟨0, _⟩ => show win0_7.index t (0 : Fin 1) * 512 + 1 * p.val = p.val; rw [e7_0]; omega

theorem iblk8 (c : Dev nD) (t : Fin cfg0.N) (p : Fin 512) (q : Fin 2048) :
    (iblk m c 8 t : Vec Ideal S512x2048 .bf16) (ix2 p q) = (m ((c : Thread nD τ).loc main_arg8) : S512x2048.Idx → EReal) (ix2 p q) := by
  obtain ⟨e0_0, e0_1, e1_0, e1_1, e1_2, e2_0, e2_1, e3_0, e4_0, e4_1, e5_0, e6_0, e6_1, e7_0, e8_0, e8_1, e9_0, e10_0, e10_1⟩ := idx_facts t
  unfold iblk
  rw [View.read_apply]
  show V m c main_v3 _ = _
  rw [V_v3]
  congr 1
  funext a
  apply Fin.ext
  match a with
  | ⟨0, _⟩ => show win0_8.index t (0 : Fin 2) * 512 + 1 * p.val = p.val; rw [e8_0]; omega
  | ⟨1, _⟩ => show win0_8.index t (1 : Fin 2) * 2048 + 1 * q.val = q.val; rw [e8_1]; omega

theorem iblk9 (c : Dev nD) (t : Fin cfg0.N) (p : Fin 2048) :
    (iblk m c 9 t : Vec Ideal S2048 .f32) (ix1 p) = (m ((c : Thread nD τ).loc main_arg9) : S2048.Idx → EReal) (ix1 p) := by
  obtain ⟨e0_0, e0_1, e1_0, e1_1, e1_2, e2_0, e2_1, e3_0, e4_0, e4_1, e5_0, e6_0, e6_1, e7_0, e8_0, e8_1, e9_0, e10_0, e10_1⟩ := idx_facts t
  unfold iblk
  rw [View.read_apply]
  show V m c main_arg9 _ = _
  rw [V_main_arg9]
  congr 1
  funext a
  apply Fin.ext
  match a with
  | ⟨0, _⟩ => show win0_9.index t (0 : Fin 1) * 2048 + 1 * p.val = p.val; rw [e9_0]; omega

/-- The weighted error of centre b and its neighbour k, from the argument arrays. -/
abbrev pairTerm (c : Dev nD) (b : Fin 512) (k : Fin 32) : EReal :=
  termRef (fun d h => (m ((c : Thread nD τ).loc main_arg2) : S2048x512.Idx → EReal) (ix2 d h)) (fun h => (m ((c : Thread nD τ).loc main_arg3) : S512.Idx → EReal) (ix1 h)) (fun h z => (m ((c : Thread nD τ).loc main_arg4) : S512x64.Idx → EReal) (ix2 h z)) (fun z => (m ((c : Thread nD τ).loc main_arg5) : S64.Idx → EReal) (ix1 z)) (fun z h => (m ((c : Thread nD τ).loc main_arg6) : S64x512.Idx → EReal) (ix2 z h)) (fun h => (m ((c : Thread nD τ).loc main_arg7) : S512.Idx → EReal) (ix1 h)) (fun h d => (m ((c : Thread nD τ).loc main_arg8) : S512x2048.Idx → EReal) (ix2 h d)) (fun d => (m ((c : Thread nD τ).loc main_arg9) : S2048.Idx → EReal) (ix1 d))
    (fun d => (m ((c : Thread nD τ).loc main_arg0) : S512x2048.Idx → EReal) (ix2 b d))
    (fun d => (m ((c : Thread nD τ).loc main_arg1) : S512x32x2048.Idx → EReal) (ix3 b k d))

/-- What grid point t contributes: the weighted errors of its 16 centres with their 32 neighbours each. -/
def part (c : Dev nD) (t : Fin 32) : EReal :=
  ∑ r : Fin 16, ∑ k : Fin 32, pairTerm m c ⟨16 * t.val + r.val, by have := t.isLt; have := r.isLt; omega⟩ k

/-- The tile point t leaves in the result's staging buffer. -/
theorem outs_apply (c : Dev nD) (t : Fin cfg0.N) (a : Fin 8) (l : Fin 128) :
    outsAt0 m c t (ix2 a l) = if a.val = 0 ∧ l.val = 0 then part m c ⟨t.val, t_lt t⟩ else Z := by
  unfold outsAt0
  rw [tile]
  refine if_congr Iff.rfl (Finset.sum_congr rfl fun r _ => Finset.sum_congr rfl fun k _ => ?_) rfl
  simp only [iblk0, iblk1, iblk2, iblk3, iblk4, iblk5, iblk6, iblk7, iblk8, iblk9]

/-- The result array after the region: 32 stacked tiles, each zero except for its point's contribution in its corner. -/
def G (c : Dev nD) : S256x128.Idx → EReal := fun i =>
  if (i 0).val % 8 = 0 ∧ (i 1).val = 0 then part m c ⟨(i 0).val / 8, by have h : (i 0).val < 256 := (i 0).isLt; omega⟩ else Z

/-- What point t writes back is block t of that array. -/
theorem flushed_eq (c : Dev nD) (t : Fin cfg0.N) :
    (dats m 0 c).flushed 10 t = ((cfg0.win 10).blk t).view.read (Elt Ideal) (G m c) := by
  obtain ⟨e0_0, e0_1, e1_0, e1_1, e1_2, e2_0, e2_1, e3_0, e4_0, e4_1, e5_0, e6_0, e6_1, e7_0, e8_0, e8_1, e9_0, e10_0, e10_1⟩ := idx_facts t
  show (cfg0.win 10).cut (grid0.coords t) ((dats m 0 c).after 10 t) = _
  rw [after0_10]
  funext j
  obtain ⟨a, l, rfl⟩ : ∃ (a : Fin 8) (l : Fin 128), j = ix2 a l := ⟨j 0, j 1, eq_ix2 j⟩
  show outsAt0 m c t (ix2 a l) = G m c (((cfg0.win 10).blk t).view.emb (ix2 a l))
  have he : ((cfg0.win 10).blk t).view.emb (ix2 a l) = ix2 (⟨8 * t.val + a.val, by have := t_lt t; have := a.isLt; omega⟩ : Fin 256) l := by
    funext x
    apply Fin.ext
    match x with
    | ⟨0, _⟩ => show win0_10.index t (0 : Fin 2) * 8 + 1 * a.val = 8 * t.val + a.val; rw [e10_0]; omega
    | ⟨1, _⟩ => show win0_10.index t (1 : Fin 2) * 128 + 1 * l.val = l.val; rw [e10_1]; omega
  rw [he, outs_apply]
  unfold G
  have ha := a.isLt
  by_cases h : a.val = 0 ∧ l.val = 0
  · rw [if_pos h, if_pos ⟨by show (8 * t.val + a.val) % 8 = 0; omega, h.2⟩]
    exact congrArg (part m c) (Fin.ext (by show t.val = (8 * t.val + a.val) / 8; omega))
  · rw [if_neg h, if_neg (fun h' => h ⟨by have h1 : (8 * t.val + a.val) % 8 = 0 := h'.1; omega, h'.2⟩)]

/-- Every entry of the result array lies in the block of the point that owns its tile. -/
theorem cover (i : S256x128.Idx) : ∃ t : Fin cfg0.N, (cfg0.win 10).flush t = true ∧ i ∈ ((cfg0.win 10).blk t).view.set := by
  have h0 : (i 0).val < 256 := (i 0).isLt
  have h1 : (i 1).val < 128 := (i 1).isLt
  obtain ⟨t, ht⟩ : ∃ t : Fin cfg0.N, t.val = (i 0).val / 8 := ⟨⟨(i 0).val / 8, by rw [N_eq]; omega⟩, rfl⟩
  obtain ⟨e0_0, e0_1, e1_0, e1_1, e1_2, e2_0, e2_1, e3_0, e4_0, e4_1, e5_0, e6_0, e6_1, e7_0, e8_0, e8_1, e9_0, e10_0, e10_1⟩ := idx_facts t
  refine ⟨t, flush0_10 t, ?_⟩
  show i ∈ ((View.whole main_v4).slice (win0_10.rect t)).set
  rw [View.set_slice_whole, Rect.mem_set_unit]
  intro a
  match a with
  | ⟨0, _⟩ =>
    show win0_10.index t (0 : Fin 2) * 8 ≤ (i 0).val ∧ (i 0).val < win0_10.index t (0 : Fin 2) * 8 + 8
    rw [e10_0, ht]
    omega
  | ⟨1, _⟩ =>
    show win0_10.index t (1 : Fin 2) * 128 ≤ (i 1).val ∧ (i 1).val < win0_10.index t (1 : Fin 2) * 128 + 128
    rw [e10_1]
    omega

/-- The result array after the region. -/
theorem final (c : Dev nD) : (dats m 0 c).arrAt 10 cfg0.N = G m c :=
  (dats m 0 c).arrAt_eq_of_cover 10 (G m c) (fun t _ => flushed_eq m c t) cover

/-- The sum of the whole result array is the sum of the 32 contributions. -/
theorem sum_G (c : Dev nD) : ∑ i : S256x128.Idx, G m c i = ∑ t : Fin 32, part m c t := by
  rw [sum_idx2]
  refine (Finset.sum_congr rfl fun R _ => Finset.sum_congr rfl fun l _ => ?_).trans (sum_corners (part m c))
  unfold G
  rw [Z_eq]
  simp only [dite_eq_ite]
  rfl

/-- The 32 contributions are the weighted errors of all 512·32 pairs. -/
theorem sum_part (c : Dev nD) : ∑ t : Fin 32, part m c t = ∑ b : Fin 512, ∑ k : Fin 32, pairTerm m c b k := by
  unfold part
  exact sum_blocks (fun b => ∑ k : Fin 32, pairTerm m c b k)

/-- The host's sum of an array from the constant zero. -/
theorem reduce_value (X : FVec Ideal S256x128 .f32) (i : S_.Idx) :
    Host.reduceAdd (F := Ideal) X (constant S_ .f32 0x00000000#32) reducesTo_S256x128_S_d0_1 h_S_ i = Z + ∑ j : S256x128.Idx, X j := by
  simp only [Host.reduceAdd, Ideal.hostReduceAdd_def]
  exact Ideal.hostReduceAdd_total reducesTo_S256x128_S_d0_1 (fun b => b.elim0) X _ i

/-- What the host lines after the region leave in the result: the mean of the weighted errors over all pairs. -/
theorem tail_value (c : Dev nD) :
    Pipeline.afterTail₀ cfgs (dats m) 0 (V0 m) [hostOps1] c main_v6 = fun _ => refTotal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4) = G m c :=
    (Pipeline.withArrays_arr spec0 launch0.win.arr_inj c _ _ 10).trans (final m c)
  rw [hw]
  funext i
  show Ideal.div (Host.reduceAdd (F := Ideal) (G m c) (constant S_ .f32 0x00000000#32) reducesTo_S256x128_S_d0_1 h_S_ i) (Ideal.ofBits .f32 0x46800000#32) = _
  rw [reduce_value, sum_G, sum_part]
  rfl

/-- The idealized kernel's run, read: the result is the mean of the weighted errors over all pairs, as the
    specification writes it from the argument arrays, and the arguments end unchanged. -/
theorem run : θ_run defs (onTc (τ := τ) (main (F := Ideal))) ⟨m, fun _ => 0, ρ⟩ fun r => ∀ c : Dev nD,
      r.2.mem ((c.tc : Thread nD τ).loc main_v6) = (fun _ => refTotal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).2 main_v6 (Pipeline.mem_restRefs_of main_v6 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c)))⟩)
    (run_main m ρ)

end Cert.KFinal
end
-- ==== Proof.RefEnc.lean ====
/-
  The reference's two encoders read at an entry: the centre's code at (b, z) and the neighbour's code at
  (b, k, z) are the two-layer map of Cert.Spec applied to the corresponding row of the input.
-/
import proofs.«418416_j8194797601160_3_alg».proof.Proof.Gen.ReferenceIdeal.Read
import proofs.«418416_j8194797601160_3_alg».proof.Proof.Spec

noncomputable section

open scoped BigOperators

namespace Cert.RefEnc

open Cert.ReferenceIdeal Cert.ReferenceIdeal.Read Cert.Spec Idealize.ShloMosaic Idealize.ShloMosaic.ValueIdx

/-- The hidden layer of the centres' encoder at row b, coordinate h. -/
theorem v4_apply (x0 : (⟨S512x2048, .f32⟩ : BufTy).Contents (Elt Ideal)) (x2 : (⟨S2048x512, .f32⟩ : BufTy).Contents (Elt Ideal))
    (x3 : (⟨S512, .f32⟩ : BufTy).Contents (Elt Ideal)) (b : Fin 512) (h : Fin 512) :
    val_main_v4 (F := Ideal) x0 x2 x3 (ix2 b h)
      = hid (fun d h => x2 (ix2 d h)) (fun h => x3 (ix1 h)) (fun d => x0 (ix2 b d)) h := by
  rw [val_main_v4_apply, val_main_v3_apply, val_main_v0_apply, val_main_v2_apply, val_main_v1_apply,
    val_main_call0_v0_apply, val_main_call0_cst_apply]
  have el : ∀ k : Fin 2048, lidx_main_v0 (ix2 b h) k = ix2 b k := fun k => funext fun a => by
    match a with
    | ⟨0, _⟩ => rfl
    | ⟨1, _⟩ => rfl
  have er : ∀ k : Fin 2048, ridx_main_v0 (ix2 b h) k = ix2 k h := fun k => funext fun a => by
    match a with
    | ⟨0, _⟩ => rfl
    | ⟨1, _⟩ => rfl
  have eb : idx_main_v1 (idx_main_v2 (ix2 b h)) = ix1 h := funext fun a => by
    match a with
    | ⟨0, _⟩ => rfl
  rw [eb]
  simp only [el, er]
  rfl

/-- The centres' encoder at row b, coordinate z. -/
theorem v8_apply (x0 : (⟨S512x2048, .f32⟩ : BufTy).Contents (Elt Ideal)) (x2 : (⟨S2048x512, .f32⟩ : BufTy).Contents (Elt Ideal))
    (x3 : (⟨S512, .f32⟩ : BufTy).Contents (Elt Ideal)) (x4 : (⟨S512x64, .f32⟩ : BufTy).Contents (Elt Ideal))
    (x5 : (⟨S64, .f32⟩ : BufTy).Contents (Elt Ideal)) (b : Fin 512) (z : Fin 64) :
    val_main_v8 (F := Ideal) x0 x2 x3 x4 x5 (ix2 b z)
      = enc (fun d h => x2 (ix2 d h)) (fun h => x3 (ix1 h)) (fun h z => x4 (ix2 h z)) (fun z => x5 (ix1 z))
          (fun d => x0 (ix2 b d)) z := by
  rw [val_main_v8_apply, val_main_v5_apply, val_main_v7_apply, val_main_v6_apply]
  have el : ∀ k : Fin 512, lidx_main_v5 (ix2 b z) k = ix2 b k := fun k => funext fun a => by
    match a with
    | ⟨0, _⟩ => rfl
    | ⟨1, _⟩ => rfl
  have er : ∀ k : Fin 512, ridx_main_v5 (ix2 b z) k = ix2 k z := fun k => funext fun a => by
    match a with
    | ⟨0, _⟩ => rfl
    | ⟨1, _⟩ => rfl
  have eb : idx_main_v6 (idx_main_v7 (ix2 b z)) = ix1 z := funext fun a => by
    match a with
    | ⟨0, _⟩ => rfl
  rw [eb]
  simp only [el, er, v4_apply]
  rfl

/-- The hidden layer of the neighbours' encoder at row b·32 + k of the flattened array, coordinate h. -/
theorem v14_apply (x1 : (⟨S512x32x2048, .f32⟩ : BufTy).Contents (Elt Ideal)) (x2 : (⟨S2048x512, .f32⟩ : BufTy).Contents (Elt Ideal))
    (x3 : (⟨S512, .f32⟩ : BufTy).Contents (Elt Ideal)) (b : Fin 512) (k : Fin 32) (h : Fin 512)
    (hr : b.val * 32 + k.val < 16384) :
    val_main_v14 (F := Ideal) x1 x2 x3 (ix2 (⟨b.val * 32 + k.val, hr⟩ : Fin 16384) h)
      = hid (fun d h => x2 (ix2 d h)) (fun h => x3 (ix1 h)) (fun d => x1 (ix3 b k d)) h := by
  rw [val_main_v14_apply, val_main_v13_apply, val_main_v10_apply, val_main_v12_apply, val_main_v11_apply,
    val_main_call1_v0_apply, val_main_call1_cst_apply]
  have hb : b.val < 512 := b.isLt
  have hk : k.val < 32 := k.isLt
  have el : ∀ d : Fin 2048,
      idx_main_v9 (lidx_main_v10 (ix2 (⟨b.val * 32 + k.val, hr⟩ : Fin 16384) h) d) = ix3 b k d :=
    fun d => funext fun a => Fin.ext (by
      have hd : d.val < 2048 := d.isLt
      match a with
      | ⟨0, _⟩ => show ((b.val * 32 + k.val) * 2048 + d.val) / 65536 = b.val; omega
      | ⟨1, _⟩ => show ((b.val * 32 + k.val) * 2048 + d.val) / 2048 % 32 = k.val; omega
      | ⟨2, _⟩ => show ((b.val * 32 + k.val) * 2048 + d.val) % 2048 = d.val; omega)
  have er : ∀ d : Fin 2048, ridx_main_v10 (ix2 (⟨b.val * 32 + k.val, hr⟩ : Fin 16384) h) d = ix2 d h :=
    fun d => funext fun a => by
      match a with
      | ⟨0, _⟩ => rfl
      | ⟨1, _⟩ => rfl
  have eb : idx_main_v11 (idx_main_v12 (ix2 (⟨b.val * 32 + k.val, hr⟩ : Fin 16384) h)) = ix1 h := funext fun a => by
    match a with
    | ⟨0, _⟩ => rfl
  rw [eb]
  simp only [val_main_v9_apply, el, er]
  rfl

/-- The neighbours' encoder at (b, k), coordinate z. -/
theorem v19_apply (x1 : (⟨S512x32x2048, .f32⟩ : BufTy).Contents (Elt Ideal)) (x2 : (⟨S2048x512, .f32⟩ : BufTy).Contents (Elt Ideal))
    (x3 : (⟨S512, .f32⟩ : BufTy).Contents (Elt Ideal)) (x4 : (⟨S512x64, .f32⟩ : BufTy).Contents (Elt Ideal))
    (x5 : (⟨S64, .f32⟩ : BufTy).Contents (Elt Ideal)) (b : Fin 512) (k : Fin 32) (z : Fin 64) :
    val_main_v19 (F := Ideal) x1 x2 x3 x4 x5 (ix3 b k z)
      = enc (fun d h => x2 (ix2 d h)) (fun h => x3 (ix1 h)) (fun h z => x4 (ix2 h z)) (fun z => x5 (ix1 z))
          (fun d => x1 (ix3 b k d)) z := by
  have hb : b.val < 512 := b.isLt
  have hk : k.val < 32 := k.isLt
  have hz : z.val < 64 := z.isLt
  have hr : b.val * 32 + k.val < 16384 := by omega
  have ei : idx_main_v19 (ix3 b k z) = ix2 (⟨b.val * 32 + k.val, hr⟩ : Fin 16384) z :=
    funext fun a => Fin.ext (by
      match a with
      | ⟨0, _⟩ => show ((b.val * 32 + k.val) * 64 + z.val) / 64 = b.val * 32 + k.val; omega
      | ⟨1, _⟩ => show ((b.val * 32 + k.val) * 64 + z.val) % 64 = z.val; omega)
  rw [val_main_v19_apply, ei, val_main_v18_apply, val_main_v15_apply, val_main_v17_apply, val_main_v16_apply]
  have el : ∀ j : Fin 512, lidx_main_v15 (ix2 (⟨b.val * 32 + k.val, hr⟩ : Fin 16384) z) j
      = ix2 (⟨b.val * 32 + k.val, hr⟩ : Fin 16384) j := fun j => funext fun a => by
    match a with
    | ⟨0, _⟩ => rfl
    | ⟨1, _⟩ => rfl
  have er : ∀ j : Fin 512, ridx_main_v15 (ix2 (⟨b.val * 32 + k.val, hr⟩ : Fin 16384) z) j = ix2 j z :=
    fun j => funext fun a => by
      match a with
      | ⟨0, _⟩ => rfl
      | ⟨1, _⟩ => rfl
  have eb : idx_main_v16 (idx_main_v17 (ix2 (⟨b.val * 32 + k.val, hr⟩ : Fin 16384) z)) = ix1 z := funext fun a => by
    match a with
    | ⟨0, _⟩ => rfl
  rw [eb]
  simp only [el, er, v14_apply]
  rfl

end Cert.RefEnc

end
-- ==== Proof.RefDecRows.lean ====
/-
  The tangent through the first layer of the reference's decoder, read at an entry.

  For centre b and its neighbour k the difference of the neighbour's code and the centre's code is multiplied with
  the decoder's first weight matrix V1: the tangent. The centre's code times V1 plus the bias c1 is the
  pre-activation; where it is positive the tangent is kept, elsewhere it is replaced by zero. The program forms
  both products on arrays whose rows are the pairs (b, k) in row-major order, row 32·b + k.
-/
import proofs.«418416_j8194797601160_3_alg».proof.Proof.Gen.ReferenceIdeal.Read
import proofs.«418416_j8194797601160_3_alg».proof.Proof.Spec
import Idealize.ShloMosaic.Lib.ValueIdx

noncomputable section

open scoped BigOperators

namespace Cert.RefDec

open Cert.ReferenceIdeal Cert.ReferenceIdeal.Read Cert.Spec Idealize.ShloMosaic Idealize.ShloMosaic.ValueIdx

/-- Row 32·b + k of the arrays with one row per (centre, neighbour) pair. -/
abbrev row (b : Fin 512) (k : Fin 32) : Fin 16384 :=
  ⟨b.val * 32 + k.val, by have := b.isLt; have := k.isLt; omega⟩

/-- Row 32·b + k, column z of the regrouped array is entry (b, k, z) of the array it regroups. -/
theorem idx25_row (b : Fin 512) (k : Fin 32) (z : Fin 64) : idx_main_v25 (ix2 (row b k) z) = ix3 b k z :=
  funext fun a => Fin.ext (by
    have hb := b.isLt; have hk := k.isLt; have hz := z.isLt
    match a with
    | ⟨0, _⟩ => show ((b.val * 32 + k.val) * 64 + z.val) / 2048 = b.val; omega
    | ⟨1, _⟩ => show ((b.val * 32 + k.val) * 64 + z.val) / 64 % 32 = k.val; omega
    | ⟨2, _⟩ => show ((b.val * 32 + k.val) * 64 + z.val) % 64 = z.val; omega)

theorem idx26_row (b : Fin 512) (k : Fin 32) (z : Fin 64) : idx_main_v26 (ix2 (row b k) z) = ix3 b k z :=
  idx25_row b k z

/-- The centre's code, broadcast over the neighbours, is read at (b, z). -/
theorem idx23_24 (b : Fin 512) (k : Fin 32) (z : Fin 64) : idx_main_v23 (idx_main_v24 (ix3 b k z)) = ix2 b z :=
  funext fun a => by match a with | ⟨0, _⟩ => rfl | ⟨1, _⟩ => rfl

theorem idx20_21 (b : Fin 512) (k : Fin 32) (z : Fin 64) : idx_main_v20 (idx_main_v21 (ix3 b k z)) = ix2 b z :=
  funext fun a => by match a with | ⟨0, _⟩ => rfl | ⟨1, _⟩ => rfl

theorem lidx27 (r : Fin 16384) (h : Fin 512) (z : Fin 64) : lidx_main_v27 (ix2 r h) z = ix2 r z :=
  funext fun a => by match a with | ⟨0, _⟩ => rfl | ⟨1, _⟩ => rfl

theorem ridx27 (r : Fin 16384) (h : Fin 512) (z : Fin 64) : ridx_main_v27 (ix2 r h) z = ix2 z h :=
  funext fun a => by match a with | ⟨0, _⟩ => rfl | ⟨1, _⟩ => rfl

theorem lidx28 (r : Fin 16384) (h : Fin 512) (z : Fin 64) : lidx_main_v28 (ix2 r h) z = ix2 r z :=
  funext fun a => by match a with | ⟨0, _⟩ => rfl | ⟨1, _⟩ => rfl

theorem ridx28 (r : Fin 16384) (h : Fin 512) (z : Fin 64) : ridx_main_v28 (ix2 r h) z = ix2 z h :=
  funext fun a => by match a with | ⟨0, _⟩ => rfl | ⟨1, _⟩ => rfl

/-- The bias, broadcast over the rows, is read at its coordinate h. -/
theorem idx29_30 (r : Fin 16384) (h : Fin 512) : idx_main_v29 (idx_main_v30 (ix2 r h)) = ix1 h :=
  funext fun a => by match a with | ⟨0, _⟩ => rfl

/-- The centres' codes spread over the pairs: row 32·b + k, column z holds the code of centre b at z. -/
theorem v25_row (x0 : (⟨S512x2048, .f32⟩ : BufTy).Contents (Elt Ideal)) (x2 : (⟨S2048x512, .f32⟩ : BufTy).Contents (Elt Ideal))
    (x3 : (⟨S512, .f32⟩ : BufTy).Contents (Elt Ideal)) (x4 : (⟨S512x64, .f32⟩ : BufTy).Contents (Elt Ideal))
    (x5 : (⟨S64, .f32⟩ : BufTy).Contents (Elt Ideal)) (b : Fin 512) (k : Fin 32) (z : Fin 64) :
    val_main_v25 (F := Ideal) x0 x2 x3 x4 x5 (ix2 (row b k) z) = val_main_v8 (F := Ideal) x0 x2 x3 x4 x5 (ix2 b z) := by
  rw [val_main_v25_apply, idx25_row, val_main_v24_apply, val_main_v23_apply, idx23_24]

/-- The code differences over the pairs: row 32·b + k, column z holds the neighbour's code minus the centre's at z. -/
theorem v26_row (x0 : (⟨S512x2048, .f32⟩ : BufTy).Contents (Elt Ideal)) (x1 : (⟨S512x32x2048, .f32⟩ : BufTy).Contents (Elt Ideal))
    (x2 : (⟨S2048x512, .f32⟩ : BufTy).Contents (Elt Ideal))
    (x3 : (⟨S512, .f32⟩ : BufTy).Contents (Elt Ideal)) (x4 : (⟨S512x64, .f32⟩ : BufTy).Contents (Elt Ideal))
    (x5 : (⟨S64, .f32⟩ : BufTy).Contents (Elt Ideal)) (b : Fin 512) (k : Fin 32) (z : Fin 64) :
    val_main_v26 (F := Ideal) x0 x1 x2 x3 x4 x5 (ix2 (row b k) z)
      = val_main_v19 (F := Ideal) x1 x2 x3 x4 x5 (ix3 b k z) - val_main_v8 (F := Ideal) x0 x2 x3 x4 x5 (ix2 b z) := by
  rw [val_main_v26_apply, idx26_row, val_main_v22_apply, val_main_v21_apply, val_main_v20_apply, idx20_21]
  rfl

end Cert.RefDec

end
-- ==== Proof.RefDec.lean ====
/-
  The first layer of the reference's decoder and the tangent through it, read at an entry.

  The centre's code c (64 coordinates) is multiplied with the decoder's first weight matrix V1 and the bias c1 is
  added: the pre-activation. Its rectifier is the hidden layer of the decoder at the centre's code. The tangent
  (the neighbour's code minus the centre's, times V1) is kept where the pre-activation is positive and replaced
  by zero elsewhere.
-/
import proofs.«418416_j8194797601160_3_alg».proof.Proof.Gen.ReferenceIdeal.Read
import proofs.«418416_j8194797601160_3_alg».proof.Proof.Spec
import proofs.«418416_j8194797601160_3_alg».proof.Proof.RefDecRows
import Idealize.ShloMosaic.Lib.ValueIdx

noncomputable section

open scoped BigOperators

namespace Cert.RefDec

open Cert.ReferenceIdeal Cert.ReferenceIdeal.Read Cert.Spec Idealize.ShloMosaic Idealize.ShloMosaic.ValueIdx

/-- The left operand of the product of the centres' codes with V1 is read at row b, column k. -/
theorem lidx42 (b : Fin 512) (h : Fin 512) (k : Fin 64) : lidx_main_v42 (ix2 b h) k = ix2 b k :=
  funext fun a => by match a with | ⟨0, _⟩ => rfl | ⟨1, _⟩ => rfl

/-- The right operand of that product is read at row k, column h. -/
theorem ridx42 (b : Fin 512) (h : Fin 512) (k : Fin 64) : ridx_main_v42 (ix2 b h) k = ix2 k h :=
  funext fun a => by match a with | ⟨0, _⟩ => rfl | ⟨1, _⟩ => rfl

/-- The bias, broadcast over the rows, is read at its coordinate h. -/
theorem idx43_44 (b : Fin 512) (h : Fin 512) : idx_main_v43 (idx_main_v44 (ix2 b h)) = ix1 h :=
  funext fun a => by match a with | ⟨0, _⟩ => rfl

/-- The decoder's hidden layer at centre b, coordinate h: the rectifier of the pre-activation at the centre's code. -/
theorem v46_apply (x0 : (⟨S512x2048, .f32⟩ : BufTy).Contents (Elt Ideal)) (x2 : (⟨S2048x512, .f32⟩ : BufTy).Contents (Elt Ideal))
    (x3 : (⟨S512, .f32⟩ : BufTy).Contents (Elt Ideal)) (x4 : (⟨S512x64, .f32⟩ : BufTy).Contents (Elt Ideal))
    (x5 : (⟨S64, .f32⟩ : BufTy).Contents (Elt Ideal)) (x6 : (⟨S64x512, .f32⟩ : BufTy).Contents (Elt Ideal))
    (x7 : (⟨S512, .f32⟩ : BufTy).Contents (Elt Ideal)) (b : Fin 512) (h : Fin 512) :
    val_main_v46 (F := Ideal) x0 x2 x3 x4 x5 x6 x7 (ix2 b h)
      = max (pre (fun z h => x6 (ix2 z h)) (fun h => x7 (ix1 h))
          (fun z => val_main_v8 (F := Ideal) x0 x2 x3 x4 x5 (ix2 b z)) h) Z := by
  rw [val_main_v46_apply, val_main_v45_apply, val_main_v42_apply, val_main_v44_apply, val_main_v43_apply,
    val_main_call3_v0_apply, val_main_call3_cst_apply, idx43_44]
  simp only [lidx42, ridx42]
  rfl

/-- The gated tangent at centre b, neighbour k, coordinate h, read in row 32·b + k: the tangent where the
    pre-activation at the centre's code is positive, zero elsewhere. -/
theorem v36_apply (x0 : (⟨S512x2048, .f32⟩ : BufTy).Contents (Elt Ideal)) (x1 : (⟨S512x32x2048, .f32⟩ : BufTy).Contents (Elt Ideal))
    (x2 : (⟨S2048x512, .f32⟩ : BufTy).Contents (Elt Ideal))
    (x3 : (⟨S512, .f32⟩ : BufTy).Contents (Elt Ideal)) (x4 : (⟨S512x64, .f32⟩ : BufTy).Contents (Elt Ideal))
    (x5 : (⟨S64, .f32⟩ : BufTy).Contents (Elt Ideal)) (x6 : (⟨S64x512, .f32⟩ : BufTy).Contents (Elt Ideal))
    (x7 : (⟨S512, .f32⟩ : BufTy).Contents (Elt Ideal)) (b : Fin 512) (k : Fin 32) (h : Fin 512) :
    val_main_v36 (F := Ideal) x0 x1 x2 x3 x4 x5 x6 x7
        (ix2 (⟨b.val * 32 + k.val, by have := b.isLt; have := k.isLt; omega⟩ : Fin 16384) h)
      = dactSel (fun z h => x6 (ix2 z h)) (fun h => x7 (ix1 h))
          (fun z => val_main_v8 (F := Ideal) x0 x2 x3 x4 x5 (ix2 b z))
          (fun z => val_main_v19 (F := Ideal) x1 x2 x3 x4 x5 (ix3 b k z)) h := by
  show val_main_v36 (F := Ideal) x0 x1 x2 x3 x4 x5 x6 x7 (ix2 (row b k) h) = _
  rw [val_main_v36_apply, val_main_v34_apply, val_main_v31_apply, val_main_v27_apply, val_main_v28_apply,
    val_main_v30_apply, val_main_v29_apply, idx29_30, val_main_v33_apply, val_main_cst_apply,
    val_main_v35_apply, val_main_cst_0_apply]
  simp only [lidx27, ridx27, lidx28, ridx28, v25_row, v26_row]
  rfl

end Cert.RefDec

end
-- ==== Proof.RefTailDist.lean ====
/-
  The squared distance between a neighbour and its centre, summed over the 2048 coordinates: the reference
  broadcasts the centre along the neighbour axis, subtracts, squares and sums the last axis from zero.
-/
import proofs.«418416_j8194797601160_3_alg».proof.Proof.Gen.ReferenceIdeal.Read
import proofs.«418416_j8194797601160_3_alg».proof.Proof.Spec

noncomputable section

open scoped BigOperators

namespace Cert.RefTail

open Cert.ReferenceIdeal Cert.ReferenceIdeal.Read Cert.Spec Idealize.ShloMosaic Idealize.ShloMosaic.ValueIdx

/-- Entry (b, k) of the distance stage is the sum over d of (xn d − xc d)², from zero. -/
theorem v62_apply (x0 : (⟨S512x2048, .f32⟩ : BufTy).Contents (Elt Ideal)) (x1 : (⟨S512x32x2048, .f32⟩ : BufTy).Contents (Elt Ideal))
    (b : Fin 512) (k : Fin 32) :
    val_main_v62 (F := Ideal) x0 x1 (ix2 b k) = Z + ∑ d : Fin 2048, dsq (x0 (ix2 b d)) (x1 (ix3 b k d)) := by
  refine (val_main_v62_apply x0 x1 (ix2 b k)).trans ?_
  refine congrArg₂ (· + ·) rfl (Finset.sum_congr rfl fun d _ => ?_)
  have e1 : idx_main_v62 (ix2 b k) d = ix3 b k d :=
    funext fun a => Fin.ext (by match a with | ⟨0, _⟩ => rfl | ⟨1, _⟩ => rfl | ⟨2, _⟩ => rfl)
  have e2 : idx_main_v58 (idx_main_v59 (ix3 b k d)) = ix2 b d :=
    funext fun a => Fin.ext (by match a with | ⟨0, _⟩ => rfl | ⟨1, _⟩ => rfl)
  rw [e1, val_main_v61_apply, val_main_v60_apply, val_main_v59_apply, val_main_v58_apply, e2]
  rfl

end Cert.RefTail

end
-- ==== Proof.RefTailHyp.lean ====
/-
  The earlier stages of the reference as hypotheses: the encoder's codes of the centres and of the neighbours,
  the decoder's rectified hidden layer at a centre's code, and the tangent through the decoder's first layer
  gated by selection. Each is stated once, as a proposition over the argument arrays.
-/
import proofs.«418416_j8194797601160_3_alg».proof.Proof.Gen.ReferenceIdeal.Read
import proofs.«418416_j8194797601160_3_alg».proof.Proof.Spec

noncomputable section

open scoped BigOperators

namespace Cert.RefTail

open Cert.ReferenceIdeal Cert.ReferenceIdeal.Read Cert.Spec Idealize.ShloMosaic Idealize.ShloMosaic.ValueIdx

variable (x0 : (⟨S512x2048, .f32⟩ : BufTy).Contents (Elt Ideal)) (x1 : (⟨S512x32x2048, .f32⟩ : BufTy).Contents (Elt Ideal)) (x2 : (⟨S2048x512, .f32⟩ : BufTy).Contents (Elt Ideal)) (x3 : (⟨S512, .f32⟩ : BufTy).Contents (Elt Ideal)) (x4 : (⟨S512x64, .f32⟩ : BufTy).Contents (Elt Ideal)) (x5 : (⟨S64, .f32⟩ : BufTy).Contents (Elt Ideal)) (x6 : (⟨S64x512, .f32⟩ : BufTy).Contents (Elt Ideal)) (x7 : (⟨S512, .f32⟩ : BufTy).Contents (Elt Ideal)) (x8 : (⟨S512x2048, .f32⟩ : BufTy).Contents (Elt Ideal)) (x9 : (⟨S2048, .f32⟩ : BufTy).Contents (Elt Ideal))

/-- Row b of the centres' code stage is the encoder applied to centre b. -/
abbrev H8 : Prop :=
  ∀ (b : Fin 512) (z : Fin 64), val_main_v8 (F := Ideal) x0 x2 x3 x4 x5 (ix2 b z)
    = enc (fun d h => x2 (ix2 d h)) (fun h => x3 (ix1 h)) (fun h z => x4 (ix2 h z)) (fun z => x5 (ix1 z)) (fun d => x0 (ix2 b d)) z

/-- Entry (b, k) of the neighbours' code stage is the encoder applied to neighbour k of centre b. -/
abbrev H19 : Prop :=
  ∀ (b : Fin 512) (k : Fin 32) (z : Fin 64), val_main_v19 (F := Ideal) x1 x2 x3 x4 x5 (ix3 b k z)
    = enc (fun d h => x2 (ix2 d h)) (fun h => x3 (ix1 h)) (fun h z => x4 (ix2 h z)) (fun z => x5 (ix1 z)) (fun d => x1 (ix3 b k d)) z

/-- Row b of the decoder's hidden stage is the rectified pre-activation at centre b's code. -/
abbrev H46 : Prop :=
  ∀ (b h : Fin 512), val_main_v46 (F := Ideal) x0 x2 x3 x4 x5 x6 x7 (ix2 b h)
    = max (pre (fun z h => x6 (ix2 z h)) (fun h => x7 (ix1 h)) (fun z => val_main_v8 (F := Ideal) x0 x2 x3 x4 x5 (ix2 b z)) h) Z

/-- Row 32·b + k of the gated tangent stage is the selected tangent of the pair (b, k). -/
abbrev H36 : Prop :=
  ∀ (b : Fin 512) (k : Fin 32) (h : Fin 512),
    val_main_v36 (F := Ideal) x0 x1 x2 x3 x4 x5 x6 x7
        (ix2 (⟨b.val * 32 + k.val, by have := b.isLt; have := k.isLt; omega⟩ : Fin 16384) h)
      = dactSel (fun z h => x6 (ix2 z h)) (fun h => x7 (ix1 h)) (fun z => val_main_v8 (F := Ideal) x0 x2 x3 x4 x5 (ix2 b z))
          (fun z => val_main_v19 (F := Ideal) x1 x2 x3 x4 x5 (ix3 b k z)) h

end Cert.RefTail

end
-- ==== Proof.RefTailPred.lean ====
/-
  The decoder's second layer in the reference, read at an entry. The value at the centre's code is the rectified
  hidden layer times the second layer's matrix plus its bias; the tangent term is the gated tangent times the same
  matrix, computed on the 16384 rows (centre, neighbour) and reshaped to [512, 32, 2048]. The prediction is their
  sum, the error its difference from the neighbour, squared and summed over the 2048 coordinates from zero.
-/
import proofs.«418416_j8194797601160_3_alg».proof.Proof.RefTailHyp

noncomputable section

open scoped BigOperators

namespace Cert.RefTail

open Cert.ReferenceIdeal Cert.ReferenceIdeal.Read Cert.Spec Idealize.ShloMosaic Idealize.ShloMosaic.ValueIdx

variable (x0 : (⟨S512x2048, .f32⟩ : BufTy).Contents (Elt Ideal)) (x1 : (⟨S512x32x2048, .f32⟩ : BufTy).Contents (Elt Ideal)) (x2 : (⟨S2048x512, .f32⟩ : BufTy).Contents (Elt Ideal)) (x3 : (⟨S512, .f32⟩ : BufTy).Contents (Elt Ideal)) (x4 : (⟨S512x64, .f32⟩ : BufTy).Contents (Elt Ideal)) (x5 : (⟨S64, .f32⟩ : BufTy).Contents (Elt Ideal)) (x6 : (⟨S64x512, .f32⟩ : BufTy).Contents (Elt Ideal)) (x7 : (⟨S512, .f32⟩ : BufTy).Contents (Elt Ideal)) (x8 : (⟨S512x2048, .f32⟩ : BufTy).Contents (Elt Ideal)) (x9 : (⟨S2048, .f32⟩ : BufTy).Contents (Elt Ideal))

/-- The decoder's value at centre b's code, coordinate d: hidden layer times column d, plus the bias. -/
theorem v50_entry (h46 : H46 x0 x2 x3 x4 x5 x6 x7) (b : Fin 512) (d : Fin 2048) :
    val_main_v50 (F := Ideal) x0 x2 x3 x4 x5 x6 x7 x8 x9 (ix2 b d)
      = (∑ h : Fin 512, max (pre (fun z h => x6 (ix2 z h)) (fun h => x7 (ix1 h)) (fun z => val_main_v8 (F := Ideal) x0 x2 x3 x4 x5 (ix2 b z)) h) Z * x8 (ix2 h d)) + x9 (ix1 d) := by
  refine (val_main_v50_apply x0 x2 x3 x4 x5 x6 x7 x8 x9 (ix2 b d)).trans ?_
  refine congrArg₂ (· + ·) ?_ ?_
  · refine (val_main_v47_apply x0 x2 x3 x4 x5 x6 x7 x8 (ix2 b d)).trans (Finset.sum_congr rfl fun h _ => ?_)
    have el : lidx_main_v47 (ix2 b d) h = ix2 b h :=
      funext fun a => Fin.ext (by match a with | ⟨0, _⟩ => rfl | ⟨1, _⟩ => rfl)
    have er : ridx_main_v47 (ix2 b d) h = ix2 h d :=
      funext fun a => Fin.ext (by match a with | ⟨0, _⟩ => rfl | ⟨1, _⟩ => rfl)
    rw [el, er, h46 b h]
  · refine (val_main_v49_apply x9 (ix2 b d)).trans ((val_main_v48_apply x9 _).trans ?_)
    exact congrArg x9 (funext fun a => Fin.ext (by match a with | ⟨0, _⟩ => rfl))

/-- The tangent term of the pair (b, k), coordinate d: the gated tangent times column d. -/
theorem v52_entry (h36 : H36 x0 x1 x2 x3 x4 x5 x6 x7) (b : Fin 512) (k : Fin 32) (d : Fin 2048) :
    val_main_v52 (F := Ideal) x0 x1 x2 x3 x4 x5 x6 x7 x8 (ix3 b k d)
      = ∑ h : Fin 512, dactSel (fun z h => x6 (ix2 z h)) (fun h => x7 (ix1 h)) (fun z => val_main_v8 (F := Ideal) x0 x2 x3 x4 x5 (ix2 b z)) (fun z => val_main_v19 (F := Ideal) x1 x2 x3 x4 x5 (ix3 b k z)) h * x8 (ix2 h d) := by
  refine (val_main_v52_apply x0 x1 x2 x3 x4 x5 x6 x7 x8 (ix3 b k d)).trans ?_
  have e : idx_main_v52 (ix3 b k d)
      = ix2 (⟨b.val * 32 + k.val, by have := b.isLt; have := k.isLt; omega⟩ : Fin 16384) d :=
    funext fun a => Fin.ext (by
      have hd := d.isLt
      match a with
      | ⟨0, _⟩ => show ((b.val * 32 + k.val) * 2048 + d.val) / 2048 = b.val * 32 + k.val; omega
      | ⟨1, _⟩ => show ((b.val * 32 + k.val) * 2048 + d.val) % 2048 = d.val; omega)
  rw [e]
  refine (val_main_v38_apply x0 x1 x2 x3 x4 x5 x6 x7 x8 _).trans (Finset.sum_congr rfl fun h _ => ?_)
  have el : lidx_main_v38 (ix2 (⟨b.val * 32 + k.val, by have := b.isLt; have := k.isLt; omega⟩ : Fin 16384) d) h
      = ix2 (⟨b.val * 32 + k.val, by have := b.isLt; have := k.isLt; omega⟩ : Fin 16384) h :=
    funext fun a => Fin.ext (by match a with | ⟨0, _⟩ => rfl | ⟨1, _⟩ => rfl)
  have er : ridx_main_v38 (ix2 (⟨b.val * 32 + k.val, by have := b.isLt; have := k.isLt; omega⟩ : Fin 16384) d) h
      = ix2 h d :=
    funext fun a => Fin.ext (by match a with | ⟨0, _⟩ => rfl | ⟨1, _⟩ => rfl)
  rw [el, er, h36 b k h]

/-- Entry (b, k) of the error stage: the squared prediction error summed over the coordinates, from zero. -/
theorem v57_apply (h46 : H46 x0 x2 x3 x4 x5 x6 x7) (h36 : H36 x0 x1 x2 x3 x4 x5 x6 x7) (b : Fin 512) (k : Fin 32) :
    val_main_v57 (F := Ideal) x0 x1 x2 x3 x4 x5 x6 x7 x8 x9 (ix2 b k)
      = Z + ∑ d : Fin 2048, colSel (fun z h => x6 (ix2 z h)) (fun h => x7 (ix1 h)) (fun z => val_main_v8 (F := Ideal) x0 x2 x3 x4 x5 (ix2 b z)) (fun z => val_main_v19 (F := Ideal) x1 x2 x3 x4 x5 (ix3 b k z))
          (fun h => x8 (ix2 h d)) (x9 (ix1 d)) (x1 (ix3 b k d)) := by
  refine (val_main_v57_apply x0 x1 x2 x3 x4 x5 x6 x7 x8 x9 (ix2 b k)).trans ?_
  refine congrArg₂ (· + ·) rfl (Finset.sum_congr rfl fun d _ => ?_)
  have e1 : idx_main_v57 (ix2 b k) d = ix3 b k d :=
    funext fun a => Fin.ext (by match a with | ⟨0, _⟩ => rfl | ⟨1, _⟩ => rfl | ⟨2, _⟩ => rfl)
  have e2 : idx_main_v51 (idx_main_v53 (ix3 b k d)) = ix2 b d :=
    funext fun a => Fin.ext (by match a with | ⟨0, _⟩ => rfl | ⟨1, _⟩ => rfl)
  have hp : val_main_v54 (F := Ideal) x0 x1 x2 x3 x4 x5 x6 x7 x8 x9 (ix3 b k d)
      = ((∑ h : Fin 512, max (pre (fun z h => x6 (ix2 z h)) (fun h => x7 (ix1 h)) (fun z => val_main_v8 (F := Ideal) x0 x2 x3 x4 x5 (ix2 b z)) h) Z * x8 (ix2 h d)) + x9 (ix1 d))
        + ∑ h : Fin 512, dactSel (fun z h => x6 (ix2 z h)) (fun h => x7 (ix1 h)) (fun z => val_main_v8 (F := Ideal) x0 x2 x3 x4 x5 (ix2 b z)) (fun z => val_main_v19 (F := Ideal) x1 x2 x3 x4 x5 (ix3 b k z)) h * x8 (ix2 h d) := by
    refine (val_main_v54_apply x0 x1 x2 x3 x4 x5 x6 x7 x8 x9 (ix3 b k d)).trans ?_
    refine congrArg₂ (· + ·) ?_ (v52_entry x0 x1 x2 x3 x4 x5 x6 x7 x8 h36 b k d)
    refine (val_main_v53_apply x0 x2 x3 x4 x5 x6 x7 x8 x9 (ix3 b k d)).trans ?_
    refine (val_main_v51_apply x0 x2 x3 x4 x5 x6 x7 x8 x9 _).trans ?_
    rw [e2]
    exact v50_entry x0 x2 x3 x4 x5 x6 x7 x8 x9 h46 b d
  rw [e1, val_main_v56_apply, val_main_v55_apply, hp]
  rfl

end Cert.RefTail

end
-- ==== Proof.RefTail.lean ====
/-
  The end of the reference: the squared distance is negated, divided by 4096 and exponentiated to the Gaussian
  weight; the weight multiplies the summed squared prediction error of the pair; the 512 × 32 weighted errors are
  summed from zero and divided by 16384. With the codes identified as the encoder applied to the rows, this is
  the specification's total.
-/
import proofs.«418416_j8194797601160_3_alg».proof.Proof.RefTailDist
import proofs.«418416_j8194797601160_3_alg».proof.Proof.RefTailPred

noncomputable section

open scoped BigOperators

namespace Cert.RefTail

open Cert.ReferenceIdeal Cert.ReferenceIdeal.Read Cert.Spec Idealize.ShloMosaic Idealize.ShloMosaic.ValueIdx

variable (x0 : (⟨S512x2048, .f32⟩ : BufTy).Contents (Elt Ideal)) (x1 : (⟨S512x32x2048, .f32⟩ : BufTy).Contents (Elt Ideal)) (x2 : (⟨S2048x512, .f32⟩ : BufTy).Contents (Elt Ideal)) (x3 : (⟨S512, .f32⟩ : BufTy).Contents (Elt Ideal)) (x4 : (⟨S512x64, .f32⟩ : BufTy).Contents (Elt Ideal)) (x5 : (⟨S64, .f32⟩ : BufTy).Contents (Elt Ideal)) (x6 : (⟨S64x512, .f32⟩ : BufTy).Contents (Elt Ideal)) (x7 : (⟨S512, .f32⟩ : BufTy).Contents (Elt Ideal)) (x8 : (⟨S512x2048, .f32⟩ : BufTy).Contents (Elt Ideal)) (x9 : (⟨S2048, .f32⟩ : BufTy).Contents (Elt Ideal))

/-- Entry (b, k) of the weighted-error stage is the specification's term of the pair (b, k). -/
theorem v67_entry (h8 : H8 x0 x2 x3 x4 x5) (h19 : H19 x1 x2 x3 x4 x5) (h46 : H46 x0 x2 x3 x4 x5 x6 x7)
    (h36 : H36 x0 x1 x2 x3 x4 x5 x6 x7) (b : Fin 512) (k : Fin 32) :
    val_main_v67 (F := Ideal) x0 x1 x2 x3 x4 x5 x6 x7 x8 x9 (ix2 b k)
      = termRef (fun d h => x2 (ix2 d h)) (fun h => x3 (ix1 h)) (fun h z => x4 (ix2 h z)) (fun z => x5 (ix1 z))
          (fun z h => x6 (ix2 z h)) (fun h => x7 (ix1 h)) (fun h d => x8 (ix2 h d)) (fun d => x9 (ix1 d))
          (fun d => x0 (ix2 b d)) (fun d => x1 (ix3 b k d)) := by
  have hc : (fun z => val_main_v8 (F := Ideal) x0 x2 x3 x4 x5 (ix2 b z)) = (enc (fun d h => x2 (ix2 d h)) (fun h => x3 (ix1 h)) (fun h z => x4 (ix2 h z)) (fun z => x5 (ix1 z)) (fun d => x0 (ix2 b d))) := funext fun z => h8 b z
  have hn : (fun z => val_main_v19 (F := Ideal) x1 x2 x3 x4 x5 (ix3 b k z)) = (enc (fun d h => x2 (ix2 d h)) (fun h => x3 (ix1 h)) (fun h z => x4 (ix2 h z)) (fun z => x5 (ix1 z)) (fun d => x1 (ix3 b k d))) := funext fun z => h19 b k z
  refine (val_main_v67_apply x0 x1 x2 x3 x4 x5 x6 x7 x8 x9 (ix2 b k)).trans ?_
  rw [v57_apply x0 x1 x2 x3 x4 x5 x6 x7 x8 x9 h46 h36 b k, hc, hn,
    val_main_v66_apply, val_main_v65_apply, val_main_v63_apply, v62_apply x0 x1 b k]
  rfl

/-- The reference's result is the specification's total. -/
theorem ref_total (h8 : H8 x0 x2 x3 x4 x5) (h19 : H19 x1 x2 x3 x4 x5) (h46 : H46 x0 x2 x3 x4 x5 x6 x7)
    (h36 : H36 x0 x1 x2 x3 x4 x5 x6 x7) :
    val_main_v69 (F := Ideal) x0 x1 x2 x3 x4 x5 x6 x7 x8 x9 = fun _ => refTotal x0 x1 x2 x3 x4 x5 x6 x7 x8 x9 := by
  funext i
  refine (val_main_v69_apply x0 x1 x2 x3 x4 x5 x6 x7 x8 x9 i).trans ?_
  unfold refTotal
  refine congrArg₂ Ideal.div ?_ rfl
  refine (val_main_v68_apply x0 x1 x2 x3 x4 x5 x6 x7 x8 x9 i).trans ?_
  refine congrArg₂ (· + ·) rfl ?_
  rw [ValueIdx.sum_idx2]
  exact Finset.sum_congr rfl fun b _ => Finset.sum_congr rfl fun k _ =>
    v67_entry x0 x1 x2 x3 x4 x5 x6 x7 x8 x9 h8 h19 h46 h36 b k

end Cert.RefTail

end
-- ==== Proof.lean ====
/-
  The certificate: the kernel and its reference compute one number on the extended reals.

  Both programs encode 512 centres and their 32 neighbours each by a two-layer rectified map, predict every
  neighbour from the decoder linearised at its centre's code, and average the squared prediction errors weighted
  by a Gaussian of the squared distance between neighbour and centre. The kernel does it 16 centres at a time,
  sums the 2048 coordinates in four slices, multiplies the tangent by the rectifier's 0/1 derivative where the
  reference selects, negates by a difference from zero, and leaves each block's partial sum in the corner of a
  tile that the host then sums; the reference works on whole arrays. On the extended reals these differ only by
  the order and grouping of sums and by x·1 = x, x·0 = 0, 0 − x = −x, so no finiteness of the inputs is used.
  Each side is read down to one term of the argument arrays (Spec.refTotal); the frames are the generated ones and
  the reference's run with its result dropped; the idealization rewrote nothing, so it is preserved trivially.
-/
import proofs.«418416_j8194797601160_3_alg».proof.Defs
import proofs.«418416_j8194797601160_3_alg».proof.Proof.Gen.Kernel
import proofs.«418416_j8194797601160_3_alg».proof.Proof.Gen.Kernel.Skeleton
import proofs.«418416_j8194797601160_3_alg».proof.Proof.Gen.Kernel.Loops
import proofs.«418416_j8194797601160_3_alg».proof.Proof.Gen.Kernel.Launch
import proofs.«418416_j8194797601160_3_alg».proof.Proof.Gen.Kernel.Points
import proofs.«418416_j8194797601160_3_alg».proof.Proof.Gen.Kernel.Frame
import proofs.«418416_j8194797601160_3_alg».proof.Proof.Gen.KernelIdeal
import proofs.«418416_j8194797601160_3_alg».proof.Proof.Gen.KernelIdeal.Skeleton
import proofs.«418416_j8194797601160_3_alg».proof.Proof.Gen.KernelIdeal.Loops
import proofs.«418416_j8194797601160_3_alg».proof.Proof.Gen.KernelIdeal.Launch
import proofs.«418416_j8194797601160_3_alg».proof.Proof.Gen.KernelIdeal.Points
import proofs.«418416_j8194797601160_3_alg».proof.Proof.Gen.KernelIdeal.Frame
import proofs.«418416_j8194797601160_3_alg».proof.Proof.Gen.ReferenceIdeal
import proofs.«418416_j8194797601160_3_alg».proof.Proof.Gen.ReferenceIdeal.Run
import proofs.«418416_j8194797601160_3_alg».proof.Proof.Gen.ReferenceIdeal.Read
import proofs.«418416_j8194797601160_3_alg».proof.Proof.Gen.Pre_finite_inputs
import proofs.«418416_j8194797601160_3_alg».proof.Proof.KFinal
import proofs.«418416_j8194797601160_3_alg».proof.Proof.RefEnc
import proofs.«418416_j8194797601160_3_alg».proof.Proof.RefDec
import proofs.«418416_j8194797601160_3_alg».proof.Proof.RefTail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result is the specification's total of its argument arrays. -/
theorem ref_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v69 (F := Ideal) m c
      = fun _ => Cert.Spec.refTotal (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) :=
  (Cert.ReferenceIdeal.Read.val_main_v69_eq m c).trans
    (Cert.RefTail.ref_total _ _ _ _ _ _ _ _ _ _ (Cert.RefEnc.v8_apply _ _ _ _ _) (Cert.RefEnc.v19_apply _ _ _ _ _)
      (Cert.RefDec.v46_apply _ _ _ _ _ _ _) (Cert.RefDec.v36_apply _ _ _ _ _ _ _ _))

/-- Both runs end at the specification's total of the (agreeing) argument arrays. -/
theorem algebraic : Cert.algebraic_KernelIdeal_ReferenceIdeal := by
  intro m ρ m' ρ' _ hagree
  refine ⟨_, Cert.KFinal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [ref_value, a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
